-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S4096x4096 : Shape := ⟨2, ![4096, 4096]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S32x4096 .f32) (main_arg1 : FVec F S4096x4096 .f32) (main_arg2 : FVec F S4096x4096 .f32) (main_arg3 : FVec F S4096x4096 .f32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S32x4096 : Shape := ⟨2, ![32, 4096]⟩
abbrev S4096x4096 : Shape := ⟨2, ![4096, 4096]⟩
abbrev S_ : Shape := ⟨0, ![]⟩
abbrev S32x32 : Shape := ⟨2, ![32, 32]⟩
abbrev S4096x256 : Shape := ⟨2, ![4096, 256]⟩
abbrev S32x256 : Shape := ⟨2, ![32, 256]⟩
abbrev S4096x32 : Shape := ⟨2, ![4096, 32]⟩
abbrev S32 : Shape := ⟨1, ![32]⟩
abbrev S32x1 : Shape := ⟨2, ![32, 1]⟩

abbrev nBuf : Space → Nat
  | .hbm => 22
  | .vmem => 12
  | .smem => 0
  | _ => 0

abbrev bufTy : (tb : Table) → Fin (tcTables nBuf tb) → BufTy
  | .hbm, ⟨0, _⟩ => ⟨S32x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S_, .i1⟩
  | .hbm, ⟨5, _⟩ => ⟨S32x32, .i1⟩
  | .hbm, ⟨6, _⟩ => ⟨S32x32, .i32⟩
  | .hbm, ⟨7, _⟩ => ⟨S_, .i32⟩
  | .hbm, ⟨8, _⟩ => ⟨S32x32, .i32⟩
  | .hbm, ⟨9, _⟩ => ⟨S32x32, .i32⟩
  | .hbm, ⟨10, _⟩ => ⟨S32x32, .i32⟩
  | .hbm, ⟨11, _⟩ => ⟨S32x32, .i1⟩
  | .hbm, ⟨12, _⟩ => ⟨S_, .i1⟩
  | .hbm, ⟨13, _⟩ => ⟨S32x32, .i1⟩
  | .hbm, ⟨14, _⟩ => ⟨S32x32, .i1⟩
  | .hbm, ⟨15, _⟩ => ⟨S_, .f32⟩
  | .hbm, ⟨16, _⟩ => ⟨S_, .f32⟩
  | .hbm, ⟨17, _⟩ => ⟨S32x32, .f32⟩
  | .hbm, ⟨18, _⟩ => ⟨S32x32, .f32⟩
  | .hbm, ⟨19, _⟩ => ⟨S32x32, .f32⟩
  | .hbm, ⟨20, _⟩ => ⟨S32x32, .f32⟩
  | .hbm, ⟨21, _⟩ => ⟨S32x4096, .f32⟩
  | .local _ .vmem, ⟨0, _⟩ => ⟨S32x4096, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S4096x256, .f32⟩
  | .local _ .vmem, ⟨7, _⟩ => ⟨S32x32, .f32⟩
  | .local _ .vmem, ⟨8, _⟩ => ⟨S32x4096, .f32⟩
  | .local _ .vmem, ⟨9, _⟩ => ⟨S32x4096, .f32⟩
  | .local _ .vmem, ⟨10, _⟩ => ⟨S32x4096, .f32⟩
  | .local _ .vmem, ⟨11, _⟩ => ⟨S32x4096, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_0 : Ref sig .tc := ⟨.hbm, 12, rfl⟩
abbrev main_call0_v5 : Ref sig .tc := ⟨.hbm, 13, rfl⟩
abbrev main_v1 : Ref sig .tc := ⟨.hbm, 14, rfl⟩
abbrev main_cst : Ref sig .tc := ⟨.hbm, 15, rfl⟩
abbrev main_cst_0 : Ref sig .tc := ⟨.hbm, 16, rfl⟩
abbrev main_call1_v0 : Ref sig .tc := ⟨.hbm, 17, rfl⟩
abbrev main_call1_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let c0_9 : Index := 0#32
  let arg0 : BitVec 32 := BitVec.ofNat 32 (i 0).val
  let c256_i32 : BitVec 32 := 256#32
  let v0 : BitVec 32 := Scalar.muli arg0 c256_i32
  let v1 : BitVec 32 := v0
  let v13 : Index := Scalar.indexCast v1
  ![0, v13.toNat]
def k0_cond1 (i : grid0.Coords) : BitVec 1 :=
  let arg0 : BitVec 32 := BitVec.ofNat 32 (i 0).val
  let c15_i32 : BitVec 32 := 15#32
  let v25 : BitVec 1 := Scalar.cmpi .eq arg0 c15_i32
  let v26 : BitVec 32 := Scalar.extui v25
  let c0_i32 : BitVec 32 := 0#32
  let v27 : BitVec 1 := Scalar.cmpi .ne v26 c0_i32
  v27

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  bcast_S_S32x32 : S_.BroadcastsInDim S32x32 (![] : Fin 0 → Fin S32x32.rank)
  inb_S32x4096_S32x4096_0_0 : ∀ a, (![0, 0] : Fin 2 → Nat) a + S32x4096.size a ≤ S32x4096.size a
  h_S32x4096 : 0 < S32x4096.numel
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  h_S32x256 : 0 < S32x256.numel
  shapeCasts_S32x256_S32x256 : S32x256.ShapeCasts S32x256
  transposes_S32x4096_p1_0_S4096x32 : S32x4096.Transposes [1, 0] S4096x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  reduces_S32x32_S32 : S32x32.Reduces [1] S32
  shapeCasts_S32_S32x1 : S32.ShapeCasts S32x1
  broadcasts_S32x1_S32x32 : S32x1.Broadcasts S32x32
  dot_S32x4096_S4096x256_S32x256_1_0_0_1_n_n_wf : DotDims.WF S32x4096 S4096x256 S32x256 [1] [0] [0] [1] [] []
  dot_S32x4096_S4096x32_S32x32_1_0_0_1_n_n_wf : DotDims.WF S32x4096 S4096x32 S32x32 [1] [0] [0] [1] [] []
  dot_S32x32_S32x4096_S32x4096_1_0_0_1_n_n_wf : DotDims.WF S32x32 S32x4096 S32x4096 [1] [0] [0] [1] [] []
  hrank0 : 0 < grid0.rank
  k0_mult1_dvd : ∀ i : grid0.Coords, 256 ∣ (k0_mult1 i).toNat
  k0_off1_inb : ∀ i : grid0.Coords, ∀ a, (k0_off1 i) a + S32x256.size a ≤ S32x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S32x4096.size a
  hwx0_0 : ∀ i : grid0.Coords, EltTy.bits .f32 = 32 ∨ (Rect.block (s := S32x4096) S32x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x4096.size a
  hwx0_1 : ∀ i : grid0.Coords, EltTy.bits .f32 = 32 ∨ (Rect.block (s := S4096x4096) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x4096.size a
  hwx0_2 : ∀ i : grid0.Coords, EltTy.bits .f32 = 32 ∨ (Rect.block (s := S4096x4096) S4096x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x4096.size a
  hwx0_3 : ∀ i : grid0.Coords, EltTy.bits .f32 = 32 ∨ (Rect.block (s := S4096x4096) S4096x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x4096.size a ≤ S32x4096.size a
  hwx0_5 : ∀ i : grid0.Coords, EltTy.bits .f32 = 32 ∨ (Rect.block (s := S32x4096) S32x4096.size (cc0_transform_5 i) (hinb0_5 i)).WholeWords (EltTy.packing .f32)

variable [Facts₀]

def dot_S32x4096_S4096x256_S32x256_1_0_0_1_n_n : DotDims S32x4096 S4096x256 S32x256 where
  lhsContracting := [1]
  rhsContracting := [0]
  lhsNonContracting := [0]
  rhsNonContracting := [1]
  lhsBatch := []
  rhsBatch := []
  wf := dot_S32x4096_S4096x256_S32x256_1_0_0_1_n_n_wf
def dot_S32x4096_S4096x32_S32x32_1_0_0_1_n_n : DotDims S32x4096 S4096x32 S32x32 where
  lhsContracting := [1]
  rhsContracting := [0]
  lhsNonContracting := [0]
  rhsNonContracting := [1]
  lhsBatch := []
  rhsBatch := []
  wf := dot_S32x4096_S4096x32_S32x32_1_0_0_1_n_n_wf
def dot_S32x32_S32x4096_S32x4096_1_0_0_1_n_n : DotDims S32x32 S32x4096 S32x4096 where
  lhsContracting := [1]
  rhsContracting := [0]
  lhsNonContracting := [0]
  rhsNonContracting := [1]
  lhsBatch := []
  rhsBatch := []
  wf := dot_S32x32_S32x4096_S32x4096_1_0_0_1_n_n_wf

abbrev win0_0 : Pipeline.Window sig grid0 :=
  Pipeline.Window.ofSpec (Memref.whole main_arg0) S32x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S32x4096.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond1 i == 1#1) | ⟨_ + 6, h⟩ => absurd h (Nat.not_lt.2 (Nat.le_add_left _ _))

class Facts : Prop extends Facts₀ where

variable [Facts]
-- ==== ReferenceIdeal.lean ====
abbrev S32x4096 : Shape := ⟨2, ![32, 4096]⟩
abbrev S4096x4096 : Shape := ⟨2, ![4096, 4096]⟩
abbrev S4096x32 : Shape := ⟨2, ![4096, 32]⟩
abbrev S32x32 : Shape := ⟨2, ![32, 32]⟩
abbrev S_ : Shape := ⟨0, ![]⟩
abbrev S32 : Shape := ⟨1, ![32]⟩
abbrev S32x1 : Shape := ⟨2, ![32, 1]⟩

abbrev nBuf : Space → Nat
  | .hbm => 45
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S32x4096, .f32⟩
  | .hbm, ⟨5, _⟩ => ⟨S32x4096, .f32⟩
  | .hbm, ⟨6, _⟩ => ⟨S32x4096, .f32⟩
  | .hbm, ⟨7, _⟩ => ⟨S4096x32, .f32⟩
  | .hbm, ⟨8, _⟩ => ⟨S32x32, .f32⟩
  | .hbm, ⟨9, _⟩ => ⟨S_, .f32⟩
  | .hbm, ⟨10, _⟩ => ⟨S32x32, .f32⟩
  | .hbm, ⟨11, _⟩ => ⟨S32x32, .f32⟩
  | .hbm, ⟨12, _⟩ => ⟨S_, .i1⟩
  | .hbm, ⟨13, _⟩ => ⟨S32x32, .i1⟩
  | .hbm, ⟨14, _⟩ => ⟨S32x32, .i32⟩
  | .hbm, ⟨15, _⟩ => ⟨S_, .i32⟩
  | .hbm, ⟨16, _⟩ => ⟨S32x32, .i32⟩
  | .hbm, ⟨17, _⟩ => ⟨S32x32, .i32⟩
  | .hbm, ⟨18, _⟩ => ⟨S32x32, .i32⟩
  | .hbm, ⟨19, _⟩ => ⟨S32x32, .i1⟩
  | .hbm, ⟨20, _⟩ => ⟨S_, .i1⟩
  | .hbm, ⟨21, _⟩ => ⟨S32x32, .i1⟩
  | .hbm, ⟨22, _⟩ => ⟨S32x32, .i1⟩
  | .hbm, ⟨23, _⟩ => ⟨S_, .f32⟩
  | .hbm, ⟨24, _⟩ => ⟨S_, .f32⟩
  | .hbm, ⟨25, _⟩ => ⟨S32x32, .f32⟩
  | .hbm, ⟨26, _⟩ => ⟨S32x32, .f32⟩
  | .hbm, ⟨27, _⟩ => ⟨S32x32, .f32⟩
  | .hbm, ⟨28, _⟩ => ⟨S32x32, .f32⟩
  | .hbm, ⟨29, _⟩ => ⟨S32x32, .f32⟩
  | .hbm, ⟨30, _⟩ => ⟨S_, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S32x1, .f32⟩
  | .hbm, ⟨36, _⟩ => ⟨S32x32, .f32⟩
  | .hbm, ⟨37, _⟩ => ⟨S32x32, .f32⟩
  | .hbm, ⟨38, _⟩ => ⟨S32x32, .f32⟩
  | .hbm, ⟨39, _⟩ => ⟨S_, .f32⟩
  | .hbm, ⟨40, _⟩ => ⟨S32, .f32⟩
  | .hbm, ⟨41, _⟩ => ⟨S32x1, .f32⟩
  | .hbm, ⟨42, _⟩ => ⟨S32x32, .f32⟩
  | .hbm, ⟨43, _⟩ => ⟨S32x32, .f32⟩
  | .hbm, ⟨44, _⟩ => ⟨S32x4096, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_0 : Ref sig .tc := ⟨.hbm, 20, rfl⟩
abbrev main_call0_v5 : Ref sig .tc := ⟨.hbm, 21, rfl⟩
abbrev main_v8 : Ref sig .tc := ⟨.hbm, 22, rfl⟩
abbrev main_cst_0 : Ref sig .tc := ⟨.hbm, 23, rfl⟩
abbrev main_cst_1 : Ref sig .tc := ⟨.hbm, 24, rfl⟩
abbrev main_call1_v0 : Ref sig .tc := ⟨.hbm, 25, rfl⟩
abbrev main_call1_v1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_cst_3 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]

class Facts₀ : Prop where
  transposes_S32x4096_S4096x32_1_0 : S32x4096.Transposes [1, 0] S4096x32
  bcast_S_S32x32 : S_.BroadcastsInDim S32x32 (![] : Fin 0 → Fin S32x32.rank)
  reducesTo_S32x32_S32_d1 : S32x32.ReducesTo [1] S32
  h_S_ : 0 < S_.numel
  bcast_S_S32 : S_.BroadcastsInDim S32 (![] : Fin 0 → Fin S32.rank)
  bcast_S32_S32x1_0 : S32.BroadcastsInDim S32x1 (![0] : Fin 1 → Fin S32x1.rank)
  bcast_S32x1_S32x32_0_1 : S32x1.BroadcastsInDim S32x32 (![0, 1] : Fin 2 → Fin S32x32.rank)
  dot_S32x4096_S4096x4096_S32x4096_1_0_0_1_n_n_wf : DotDims.WF S32x4096 S4096x4096 S32x4096 [1] [0] [0] [1] [] []
  dot_S32x4096_S4096x32_S32x32_1_0_0_1_n_n_wf : DotDims.WF S32x4096 S4096x32 S32x32 [1] [0] [0] [1] [] []
  dot_S32x32_S32x4096_S32x4096_1_0_0_1_n_n_wf : DotDims.WF S32x32 S32x4096 S32x4096 [1] [0] [0] [1] [] []

variable [Facts₀]

def dot_S32x4096_S4096x4096_S32x4096_1_0_0_1_n_n : DotDims S32x4096 S4096x4096 S32x4096 where
  lhsContracting := [1]
  rhsContracting := [0]
  lhsNonContracting := [0]
  rhsNonContracting := [1]
  lhsBatch := []
  rhsBatch := []
  wf := dot_S32x4096_S4096x4096_S32x4096_1_0_0_1_n_n_wf
def dot_S32x4096_S4096x32_S32x32_1_0_0_1_n_n : DotDims S32x4096 S4096x32 S32x32 where
  lhsContracting := [1]
  rhsContracting := [0]
  lhsNonContracting := [0]
  rhsNonContracting := [1]
  lhsBatch := []
  rhsBatch := []
  wf := dot_S32x4096_S4096x32_S32x32_1_0_0_1_n_n_wf
def dot_S32x32_S32x4096_S32x4096_1_0_0_1_n_n : DotDims S32x32 S32x4096 S32x4096 where
  lhsContracting := [1]
  rhsContracting := [0]
  lhsNonContracting := [0]
  rhsNonContracting := [1]
  lhsBatch := []
  rhsBatch := []
  wf := dot_S32x32_S32x4096_S32x4096_1_0_0_1_n_n_wf

class Facts : Prop extends Facts₀ where

variable [Facts]
-- ==== Proof.Attn.RefTerm.lean ====
/-
  The attention function the two programs share, written once over the reference's own operations:
  three projections `x · w` (contracting the 4096 input features), the scores `q · kᵀ` scaled by 2⁻⁸ and clamped
  from above by the causal mask (+1e5 on and below the diagonal, -1e5 above it), a softmax along each row
  (the row maximum taken from -∞, subtracted; the exponentials divided by their row sum) and the product with `v`.
  The reference's run ends at exactly this term of its four argument arrays.
-/
import proofs.«149021_j2869038154391_1_alg».proof.Proof.Gen.ReferenceIdeal.Run

noncomputable section

namespace Cert.Attn

open Cert.ReferenceIdeal Cert.ReferenceIdeal.Gen Idealize.ShloMosaic Idealize.ShloMosaic.TcCoe Idealize.SL.Sem Idealize.ShloMosaic.StableHlo

variable {F : FTy → Type} [FloatOps F]

/-- One projection: `x · w`, the 4096 input features contracted. -/
def proj (x : Vec F S32x4096 .f32) (w : Vec F S4096x4096 .f32) : Vec F S32x4096 .f32 :=
  Host.dotGeneral dot_S32x4096_S4096x4096_S32x4096_1_0_0_1_n_n none x w

/-- The causal mask: +1e5 where the row index is at least the column index, -1e5 elsewhere. -/
def mask : Vec F S32x32 .f32 :=
  id (select (select (cmpi .sge (addi (iotaInDim S32x32 32 0) (broadcastInDim S32x32 ![] bcast_S_S32x32 (constantI S_ 32 0#32))) (iotaInDim S32x32 32 1)) (broadcastInDim S32x32 ![] bcast_S_S32x32 (constantI S_ 1 1#1)) (broadcastInDim S32x32 ![] bcast_S_S32x32 (constantI S_ 1 0#1))) (broadcastInDim S32x32 ![] bcast_S_S32x32 (constant S_ .f32 0x47C35000#32)) (broadcastInDim S32x32 ![] bcast_S_S32x32 (constant S_ .f32 0xC7C35000#32)))

/-- The clamped scores: `min (q · kᵀ · 2⁻⁸, mask)`. -/
def scores (k q : Vec F S32x4096 .f32) (mk : Vec F S32x32 .f32) : Vec F S32x32 .f32 :=
  minimumf (mulf (Host.dotGeneral dot_S32x4096_S4096x32_S32x32_1_0_0_1_n_n none q (transpose S4096x32 [1, 0] k transposes_S32x4096_S4096x32_1_0)) (broadcastInDim S32x32 ![] bcast_S_S32x32 (constant S_ .f32 0x3B800000#32))) mk

/-- The exponentials of the scores less their row maximum. -/
def expd (s : Vec F S32x32 .f32) : Vec F S32x32 .f32 :=
  Host.exp (subf s (broadcastInDim S32x32 ![0, 1] bcast_S32x1_S32x32_0_1 (broadcastInDim S32x1 ![0] bcast_S32_S32x1_0 (maximumf (broadcastInDim S32 ![] bcast_S_S32 (constant S_ .f32 0xFF800000#32)) (Host.reduce FloatOps.maximumf s (constant S_ .f32 0xFF800000#32) reducesTo_S32x32_S32_d1 h_S_)))))

/-- A row-wise normalisation: each entry over its row's sum. -/
def rowNorm (e : Vec F S32x32 .f32) : Vec F S32x32 .f32 :=
  Host.divf e (broadcastInDim S32x32 ![0, 1] bcast_S32x1_S32x32_0_1 (broadcastInDim S32x1 ![0] bcast_S32_S32x1_0 (Host.reduceAdd e (constant S_ .f32 0x00000000#32) reducesTo_S32x32_S32_d1 h_S_)))

/-- Attention from the three projections and the mask. -/
def attn (k q v : Vec F S32x4096 .f32) (mk : Vec F S32x32 .f32) : Vec F S32x4096 .f32 :=
  Host.dotGeneral dot_S32x32_S32x4096_S32x4096_1_0_0_1_n_n none (rowNorm (expd (scores k q mk))) v

set_option maxRecDepth 8192 in
/-- The reference's result is the attention function of its projections. -/
theorem res_eq (m : (ℓ : Loc nD τ sig) → Buf (Elt F) ℓ) (c : Dev nD) :
    Value.res_out0 m c
      = attn (proj (m ((c.tc : Thread nD τ).loc main_arg0)) (m ((c.tc : Thread nD τ).loc main_arg1)))
          (proj (m ((c.tc : Thread nD τ).loc main_arg0)) (m ((c.tc : Thread nD τ).loc main_arg2)))
          (proj (m ((c.tc : Thread nD τ).loc main_arg0)) (m ((c.tc : Thread nD τ).loc main_arg3))) mask := by
  show Value.res_main_v23 m c = _
  unfold Value.res_main_v23 attn rowNorm expd scores proj mask
  rfl

end Cert.Attn

end
-- ==== Proof.Attn.KTiles.lean ====
/-
  What the kernel computes, as functions of the arrays its one region finds. At grid point `t` it stores three
  column tiles — `x · wk`, `x · wq`, `x · wv` restricted to output columns `[256 t, 256 t + 256)` — into three
  scratch buffers; after the sixteenth point each scratch holds its sixteen tiles side by side, and the output block
  is the attention function of those three buffers and the mask block.
-/
import proofs.«149021_j2869038154391_1_alg».proof.Proof.Gen.KernelIdeal.Frame
import proofs.«149021_j2869038154391_1_alg».proof.Proof.Gen.KernelIdeal.Skeleton
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem

variable {F : FTy → Type} [FloatOps F]

variable (m : (ℓ : Loc nD τ sig) → Buf (Elt F) ℓ)

/-- Grid point number `n`. -/
def pt (n : ℕ) (h : n < 16) : Fin cfg0.N := ⟨n, lt_of_lt_of_eq h (show (16 : ℕ) = cfg0.N from N_0.symm)⟩

@[simp] theorem pt_val (n : ℕ) (h : n < 16) : (pt n h).val = n := rfl

/-- The last grid point, where the attention core runs. -/
def tlast : Fin cfg0.N := pt 15 (by decide)

/-- The key tile of point `t`: `x · wk` on the point's 256 output columns. -/
def kTile (c : Dev nD) (t : Fin cfg0.N) : FVec F S32x256 .f32 := k0_pay2 (iblk m c 0 t) (iblk m c 1 t)
/-- The query tile of point `t`. -/
def qTile (c : Dev nD) (t : Fin cfg0.N) : FVec F S32x256 .f32 := k0_pay3 (iblk m c 0 t) (iblk m c 2 t)
/-- The value tile of point `t`. -/
def vTile (c : Dev nD) (t : Fin cfg0.N) : FVec F S32x256 .f32 := k0_pay4 (iblk m c 0 t) (iblk m c 3 t)

/-- Sixteen 32×256 tiles side by side: column `j` of the result is column `j % 256` of tile `j / 256`. -/
def gather (tile : Fin cfg0.N → FVec F S32x256 .f32) : Vec F S32x4096 .f32 := fun y =>
  tile (pt ((y 1).val / 256) (by have h : (y 1).val < 4096 := (y 1).isLt; omega))
    (ix2 (y 0) ⟨(y 1).val % 256, Nat.mod_lt _ (by decide)⟩)

/-- The block the body leaves in the output window at the last point. -/
def outBlk (c : Dev nD) : Vec F S32x4096 .f32 :=
  k0_pay5 (gather (kTile m c)) (gather (qTile m c)) (gather (vTile m c)) (iblk m c 4 tlast)

end Cert.KernelIdeal.Hand

end
-- ==== Proof.Attn.KBody.lean ====
/-
  The kernel body at one grid point, on whole staging buffers and the three scratch buffers at named contents.
  At every point the body stores the point's three projection tiles into columns `[256 n, 256 n + 256)` of the
  scratch buffers and leaves every other column as it found it (`putTile`); at the last point it then reads the
  three scratch buffers whole and stores the attention core of them and of the mask block into the output block.
-/
import proofs.«149021_j2869038154391_1_alg».proof.Proof.Gen.KernelIdeal.Frame
import proofs.«149021_j2869038154391_1_alg».proof.Proof.Gen.KernelIdeal.Skeleton
import Idealize.ShloMosaic.Lib.ValueIdx
import Idealize.ShloMosaic.Lib.WritesUnit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A tile put into its columns -/

/-- `s` with columns `[256 n, 256 n + 256)` replaced by the tile `w`. -/
def putTile (s : Vec F S32x4096 .f32) (n : ℕ) (w : FVec F S32x256 .f32) : Vec F S32x4096 .f32 := fun y =>
  if h : 256 * n ≤ (y 1).val ∧ (y 1).val < 256 * n + 256 then w (ix2 (y 0) ⟨(y 1).val - 256 * n, by omega⟩) else s y

/-- Inside the tile's columns the new contents are the tile. -/
theorem putTile_in (s : Vec F S32x4096 .f32) (n : ℕ) (w : FVec F S32x256 .f32) (r : Fin 32) (q : Fin 256) (h : 256 * n + q.val < 4096) :
    putTile s n w (ix2 r ⟨256 * n + q.val, h⟩) = w (ix2 r q) := by
  unfold putTile
  rw [dif_pos (show 256 * n ≤ ((ix2 r (⟨256 * n + q.val, h⟩ : Fin 4096) : S32x4096.Idx) 1).val ∧ ((ix2 r (⟨256 * n + q.val, h⟩ : Fin 4096) : S32x4096.Idx) 1).val < 256 * n + 256 from ⟨Nat.le_add_right _ _, Nat.add_lt_add_left q.isLt _⟩)]
  exact congrArg w (funext fun a => Fin.ext (by
    match a with
    | ⟨0, _⟩ => rfl
    | ⟨1, _⟩ => show 256 * n + q.val - 256 * n = q.val; omega))

/-- Outside them they are what they were. -/
theorem putTile_out (s : Vec F S32x4096 .f32) (n : ℕ) (w : FVec F S32x256 .f32) (y : S32x4096.Idx)
    (h : (y 1).val < 256 * n ∨ 256 * n + 256 ≤ (y 1).val) : putTile s n w y = s y := by
  unfold putTile
  rw [dif_neg (by omega)]

/-- What a whole buffer at contents `s` reads after one store of the tile `w` through the unit-stride rectangle of
    all 32 rows and columns `[256 n, 256 n + 256)`. -/
theorem read_store_tile {arg : Memref sig .tc .vmem S32x4096 .f32} (harg : arg.IsWhole) (s : Vec F S32x4096 .f32)
    (off : Fin 2 → ℕ) (inb : ∀ a, off a + S32x256.size a ≤ S32x4096.size a) (w : FVec F S32x256 .f32) (n : ℕ)
    (hoff : off = ![0, 256 * n]) :
    arg.view.read (Elt F) (arg.view.writes (Elt F) (harg.unread s) [⟨Rect.unit (s := S32x4096) off S32x256.size inb, w⟩])
      = putTile s n w := by
  funext y
  by_cases h : 256 * n ≤ (y 1).val ∧ (y 1).val < 256 * n + 256
  · unfold putTile
    rw [dif_pos h]
    exact View.read_writes_cons_unit_of_mem arg.view (harg.unread s) inb w [] y (ix2 (y 0) ⟨(y 1).val - 256 * n, by omega⟩) hoff
      (Fin.forall_fin_two.mpr ⟨(Nat.zero_add _).symm, by show (y 1).val = 256 * n + ((y 1).val - 256 * n); omega⟩)
  · rw [putTile_out s n w y (by omega)]
    refine (View.read_writes_cons_unit_of_not_mem arg.view (harg.unread s) inb w [] y hoff (1 : Fin 2) (by
      show (y 1).val < 256 * n ∨ 256 * n + 256 ≤ (y 1).val; omega)).trans ?_
    rw [View.writes_nil]
    exact congrFun (harg.read_unread s) y

/-- What a whole buffer reads after one store through its whole shape: the payload. -/
theorem read_store_whole {S : Shape} {arg : Memref sig .tc .vmem S .f32} (f : arg.view.ty.Contents (Elt F))
    (off : Fin S.rank → ℕ) (hoff : off = fun _ => 0) (inb : ∀ a, off a + S.size a ≤ S.size a) (w : S.Idx → Elt F .f32) :
    arg.view.read (Elt F) (arg.view.writes (Elt F) f [⟨Rect.unit (s := S) off S.size inb, w⟩]) = w := by
  funext y
  exact View.read_writes_cons_unit_of_mem arg.view f inb w [] y y hoff (fun a => (Nat.zero_add _).symm)

/-- The zero offsets of a rank-2 rectangle. -/
theorem hz2 : (![0, 0] : Fin 2 → ℕ) = fun _ => 0 := by decide

/-- The tile rectangle's offsets at grid point `t`: row 0, column `256 t`. -/
theorem off_eq : ∀ t : Fin cfg0.N, k0_off1 (grid0.coords t) = ![0, 256 * t.val] :=
  (by decide +kernel : ∀ t : Fin grid0.N, k0_off1 (grid0.coords t) = ![0, 256 * t.val])

/-- A load through a buffer's whole shape reads its contents. -/
theorem readAt_whole {S : Shape} {arg : Memref sig .tc .vmem S .f32} (f : arg.view.ty.Contents (Elt F))
    (off : Fin S.rank → ℕ) (hoff : off = fun _ => 0) (inb : ∀ a, off a + S.size a ≤ S.size a) :
    arg.view.readAt (Elt F) (Rect.unit (s := S) off S.size inb).toLoadRect f = arg.view.read (Elt F) f := by
  rw [View.readAt_eq_ld]; exact View.ld_unit_zero hoff inb _

/-! ## The body at a point -/

set_option maxHeartbeats 1000000 in
/-- THE LAST POINT. From the inputs' blocks, the output buffer at anything and the scratch buffers at `xs·`, the body
    leaves each scratch with the point's tile put into its columns, and the output buffer at the attention core of the
    three scratch buffers so updated and the mask block. -/
theorem body_last (c : Dev nD) (i : grid0.Coords) (arg1 : Memref sig .tc .vmem S32x4096 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S32x32 .f32) (harg5 : arg5.IsWhole) (arg6 : Memref sig .tc .vmem S32x4096 .f32) (harg6 : arg6.IsWhole) (arg7 : Memref sig .tc .vmem S32x4096 .f32) (harg7 : arg7.IsWhole) (arg8 : Memref sig .tc .vmem S32x4096 .f32) (harg8 : arg8.IsWhole) (arg9 : Memref sig .tc .vmem S32x4096 .f32) (harg9 : arg9.IsWhole) (hc0 : k0_cond1 i = 1#1)
    (n : ℕ) (hoff : k0_off1 i = ![0, 256 * n])
    (x0 : Vec F S32x4096 .f32) (x1 : Vec F S4096x256 .f32) (x2 : Vec F S4096x256 .f32) (x3 : Vec F S4096x256 .f32) (x4 : Vec F S32x32 .f32)
    (xs0 xs1 xs2 : Vec F S32x4096 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ owns (c : Thread nD τ) arg8 fullShare xs1 ∗ owns (c : Thread nD τ) arg9 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k0_pay5 (putTile xs0 n (k0_pay2 x0 x1)) (putTile xs1 n (k0_pay3 x0 x2)) (putTile xs2 n (k0_pay4 x0 x3)) x4)
            ∗ owns (c : Thread nD τ) arg7 fullShare (putTile xs0 n (k0_pay2 x0 x1)) ∗ owns (c : Thread nD τ) arg8 fullShare (putTile xs1 n (k0_pay3 x0 x2)) ∗ owns (c : Thread nD τ) arg9 fullShare (putTile xs2 n (k0_pay4 x0 x3))) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9) K := by
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hfs0; obtain rfl := harg8.eq_unread hfs1; obtain rfl := harg9.eq_unread hfs2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      sl_unfold_run_names
      rw [read_store_whole f5 _ hz2 _ _]
      rw [readAt_whole (S := S32x4096) (arg := arg7) _ _ hz2 _, readAt_whole (S := S32x4096) (arg := arg8) _ _ hz2 _, readAt_whole (S := S32x4096) (arg := arg9) _ _ hz2 _, readAt_whole (S := S32x32) (arg := arg5) _ _ hz2 _,
        readAt_whole (S := S32x4096) (arg := arg1) _ _ hz2 _, readAt_whole (S := S4096x256) (arg := arg2) _ _ hz2 _, readAt_whole (S := S4096x256) (arg := arg3) _ _ hz2 _, readAt_whole (S := S4096x256) (arg := arg4) _ _ hz2 _,
        harg1.read_unread, harg2.read_unread, harg3.read_unread, harg4.read_unread, harg5.read_unread]
      rw [read_store_tile harg7 xs0 _ _ _ n hoff, read_store_tile harg8 xs1 _ _ _ n hoff, read_store_tile harg9 xs2 _ _ _ n hoff]
    isplitl [HS0]
    · iexists _; isplitr; swap; · iexact HS0
      ipureintro
      sl_unfold_run_names
      rw [readAt_whole (S := S32x4096) (arg := arg1) _ _ hz2 _, readAt_whole (S := S4096x256) (arg := arg2) _ _ hz2 _, harg1.read_unread, harg2.read_unread]
      exact read_store_tile harg7 xs0 _ _ _ n hoff
    isplitl [HS1]
    · iexists _; isplitr; swap; · iexact HS1
      ipureintro
      sl_unfold_run_names
      rw [readAt_whole (S := S32x4096) (arg := arg1) _ _ hz2 _, readAt_whole (S := S4096x256) (arg := arg3) _ _ hz2 _, harg1.read_unread, harg3.read_unread]
      exact read_store_tile harg8 xs1 _ _ _ n hoff
    iexists _; isplitr; swap; · iexact HS2
    ipureintro
    sl_unfold_run_names
    rw [readAt_whole (S := S32x4096) (arg := arg1) _ _ hz2 _, readAt_whole (S := S4096x256) (arg := arg4) _ _ hz2 _, harg1.read_unread, harg4.read_unread]
    exact read_store_tile harg9 xs2 _ _ _ n hoff

set_option maxHeartbeats 1000000 in
/-- A POINT BEFORE THE LAST. The body leaves each scratch with the point's tile put into its columns and does not touch the
    output buffer. -/
theorem body_mid (c : Dev nD) (i : grid0.Coords) (arg1 : Memref sig .tc .vmem S32x4096 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S32x32 .f32) (harg5 : arg5.IsWhole) (arg6 : Memref sig .tc .vmem S32x4096 .f32) (harg6 : arg6.IsWhole) (arg7 : Memref sig .tc .vmem S32x4096 .f32) (harg7 : arg7.IsWhole) (arg8 : Memref sig .tc .vmem S32x4096 .f32) (harg8 : arg8.IsWhole) (arg9 : Memref sig .tc .vmem S32x4096 .f32) (harg9 : arg9.IsWhole) (hc0 : ¬ k0_cond1 i = 1#1)
    (n : ℕ) (hoff : k0_off1 i = ![0, 256 * n])
    (x0 : Vec F S32x4096 .f32) (x1 : Vec F S4096x256 .f32) (x2 : Vec F S4096x256 .f32) (x3 : Vec F S4096x256 .f32) (x4 : Vec F S32x32 .f32)
    (xi5 : Vec F S32x4096 .f32) (xs0 xs1 xs2 : Vec F S32x4096 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0 ∗ owns (c : Thread nD τ) arg8 fullShare xs1 ∗ owns (c : Thread nD τ) arg9 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare xi5
            ∗ owns (c : Thread nD τ) arg7 fullShare (putTile xs0 n (k0_pay2 x0 x1)) ∗ owns (c : Thread nD τ) arg8 fullShare (putTile xs1 n (k0_pay3 x0 x2)) ∗ owns (c : Thread nD τ) arg9 fullShare (putTile xs2 n (k0_pay4 x0 x3))) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9) K := by
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hfs0; obtain rfl := harg8.eq_unread hfs1; obtain rfl := harg9.eq_unread hfs2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact hf5
      iexact H5
    isplitl [HS0]
    · iexists _; isplitr; swap; · iexact HS0
      ipureintro
      sl_unfold_run_names
      rw [readAt_whole (S := S32x4096) (arg := arg1) _ _ hz2 _, readAt_whole (S := S4096x256) (arg := arg2) _ _ hz2 _, harg1.read_unread, harg2.read_unread]
      exact read_store_tile harg7 xs0 _ _ _ n hoff
    isplitl [HS1]
    · iexists _; isplitr; swap; · iexact HS1
      ipureintro
      sl_unfold_run_names
      rw [readAt_whole (S := S32x4096) (arg := arg1) _ _ hz2 _, readAt_whole (S := S4096x256) (arg := arg3) _ _ hz2 _, harg1.read_unread, harg3.read_unread]
      exact read_store_tile harg8 xs1 _ _ _ n hoff
    iexists _; isplitr; swap; · iexact HS2
    ipureintro
    sl_unfold_run_names
    rw [readAt_whole (S := S32x4096) (arg := arg1) _ _ hz2 _, readAt_whole (S := S4096x256) (arg := arg4) _ _ hz2 _, harg1.read_unread, harg4.read_unread]
    exact read_store_tile harg9 xs2 _ _ _ n hoff

end Cert.KernelIdeal.Hand

end
-- ==== Proof.Attn.KData.lean ====
/-
  The proof data of the kernel's one pipeline. Between grid points the three scratch buffers hold SOME contents of
  which only this is known: the columns of the tiles already stored, `[0, 256 n)` before point `n`, hold those
  tiles (`Filled`); the other columns are whatever the buffers held on entry. Before the first point this says
  nothing, after the last it says each scratch is its sixteen tiles side by side. The output window's staging
  buffer is written once, whole, at the last point, with the block `outBlk`.
-/
import proofs.«149021_j2869038154391_1_alg».proof.Proof.Attn.KTiles
import proofs.«149021_j2869038154391_1_alg».proof.Proof.Attn.KBody

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Columns already stored -/

/-- The columns `[0, 256 n)` of `s` hold the tiles of the points below `n`. -/
def Filled (tile : Fin cfg0.N → FVec F S32x256 .f32) (n : ℕ) (s : Vec F S32x4096 .f32) : Prop :=
  ∀ t : Fin cfg0.N, t.val < n → ∀ (r : Fin 32) (q : Fin 256) (h : 256 * t.val + q.val < 4096),
    s (ix2 r ⟨256 * t.val + q.val, h⟩) = tile t (ix2 r q)

/-- Before the first point nothing is claimed. -/
theorem Filled.zero (tile : Fin cfg0.N → FVec F S32x256 .f32) (s : Vec F S32x4096 .f32) : Filled tile 0 s :=
  fun _ ht => absurd ht (Nat.not_lt_zero _)

/-- Storing point `n`'s tile into its columns keeps the earlier tiles and adds this one. -/
theorem Filled.step {tile : Fin cfg0.N → FVec F S32x256 .f32} {n : ℕ} {s : Vec F S32x4096 .f32} (hs : Filled tile n s)
    (t : Fin cfg0.N) (ht : t.val = n) : Filled tile (n + 1) (putTile s n (tile t)) := by
  intro t' ht' r q h
  by_cases e : t'.val = n
  · obtain rfl : t' = t := Fin.ext (e.trans ht.symm)
    have := putTile_in s n (tile t') r q (by rw [← e]; exact h)
    simpa only [e] using this
  · have hlt : t'.val < n := by omega
    rw [putTile_out s n (tile t) _ (Or.inl (by
      show 256 * t'.val + q.val < 256 * n
      have := q.isLt; omega))]
    exact hs t' hlt r q h

/-- After the sixteenth point the buffer is its sixteen tiles side by side. -/
theorem Filled.full {tile : Fin cfg0.N → FVec F S32x256 .f32} {s : Vec F S32x4096 .f32} (hs : Filled tile 16 s) :
    s = gather tile := by
  funext y
  have hy : (y 1).val < 4096 := (y 1).isLt
  have hd : (y 1).val / 256 < 16 := by omega
  have key := hs (pt ((y 1).val / 256) hd) (by simpa using hd) (y 0) ⟨(y 1).val % 256, Nat.mod_lt _ (by decide)⟩
    (by show 256 * ((y 1).val / 256) + (y 1).val % 256 < 4096; rw [Nat.div_add_mod]; exact hy)
  have hidx : (ix2 (y 0) (⟨256 * (pt ((y 1).val / 256) hd).val + (y 1).val % 256, by
      show 256 * ((y 1).val / 256) + (y 1).val % 256 < 4096; rw [Nat.div_add_mod]; exact hy⟩ : Fin 4096) : S32x4096.Idx) = y :=
    funext fun a => Fin.ext (by
      match a with
      | ⟨0, _⟩ => rfl
      | ⟨1, _⟩ => show 256 * ((y 1).val / 256) + (y 1).val % 256 = (y 1).val; exact Nat.div_add_mod _ _)
  rw [hidx] at key
  exact key

/-! ## The scratch buffers and the invariant -/

/-- The scratch operands: whole scoped buffers of the kernel's own, passed beside the windows. -/
abbrev scK : Memref sig .tc .vmem S32x4096 .f32 := Memref.whole cc0_scratch0
abbrev scQ : Memref sig .tc .vmem S32x4096 .f32 := Memref.whole cc0_scratch1
abbrev scV : Memref sig .tc .vmem S32x4096 .f32 := Memref.whole cc0_scratch2

/-- The class invariant spelt over the three scratch buffers: each owned at some contents, and the generator
    register at some state. -/
theorem PhiA_eq (c : Dev nD) :
    (Pipeline.ΦA spec0 c : sProp 𝕄)
      = iprop(iprop((∃ d, owns (c : Thread nD τ) scK fullShare d) ∗ (∃ d, owns (c : Thread nD τ) scQ fullShare d) ∗ (∃ d, owns (c : Thread nD τ) scV fullShare d)) ∗ (∃ r, prngReg c r)) := by
  unfold Pipeline.ΦA; rw [scopedRest0_eq]; simp only [scK, scQ, scV, owns_whole]; try rfl

variable (m : (ℓ : Loc nD τ sig) → Buf (Elt F) ℓ)

/-- The invariant before point `n`: the scratch buffers at some contents with the first `n` tiles of each in place,
    and the generator register at some state. -/
def PhiS (c : Dev nD) (n : ℕ) : sProp 𝕄 :=
  iprop(iprop(∃ s0 s1 s2, ⌜Filled (kTile m c) n s0 ∧ Filled (qTile m c) n s1 ∧ Filled (vTile m c) n s2⌝
      ∗ owns (c : Thread nD τ) scK fullShare s0 ∗ owns (c : Thread nD τ) scQ fullShare s1 ∗ owns (c : Thread nD τ) scV fullShare s2)
    ∗ (∃ r, prngReg c r))

/-! ## The proof data -/

/-- The proof data of the one pipeline on core `c`: the arrays as the region finds them; after the body each input's
    buffer at its block and the output's at `outBlk` (consulted at the last point only: elsewhere the window is idle and
    not written back); the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk m c
  Φ t := PhiS m c t.val
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outBlk m c := by dsimp only [dats]

/-- The invariant at a point's start and end. -/
theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := by
  dsimp only [dats]; simp only [Fin.val_succ]

end Cert.KernelIdeal.Hand

end
-- ==== Proof.Attn.KFrame.lean ====
/-
  The body obligation, the run and the frame of the kernel's program, at any float instance. At each grid point the
  invariant hands the body the scratch buffers at contents whose first `n` tiles are in place; the body puts the
  point's tiles into their columns, which makes it `n + 1` tiles; at the last point all sixteen are in place, so the
  three buffers the attention core reads are the sixteen tiles side by side and the block it stores is `outBlk`.
  Before the first point the invariant says no more than the class's own (the scratch at anything), after the
  last it gives that back.
-/
import proofs.«149021_j2869038154391_1_alg».proof.Proof.Attn.KData

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule's facts, decided over the sixteen points -/

/-- The attention core runs at the last point only. -/
theorem hcond : ∀ t : Fin cfg0.N, k0_cond1 (grid0.coords t) = 1#1 ↔ t.val % 16 = 15 :=
  (by decide +kernel : ∀ t : Fin grid0.N, k0_cond1 (grid0.coords t) = 1#1 ↔ t.val % 16 = 15)

/-- The input windows are never idle. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
/-- The output window is idle exactly where the attention core does not run. -/
theorem idle_5 : ∀ t : Fin cfg0.N, cfg0.idle 5 (grid0.coords t) = !decide (t.val % 16 = 15) := by decide +kernel

/-- Each window's current staging memref at point `t`, as the pipeline passes it to the body, and its wholeness. -/
abbrev ms0 (t : Fin cfg0.N) : Memref sig .tc .vmem S32x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4096x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S32x32 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S32x4096 .f32 := win0_5.stage (cfg0.slots t 5)
abbrev hs5 (t : Fin cfg0.N) : (ms5 t).IsWhole := hstage0_5 ((cfg0.slots t 5).cast nbuf0_5)

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## The body obligation at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1600000 in
/-- The body at any point. The inputs' buffers hold their blocks; the invariant gives the three scratch buffers at contents
    with the first `t` tiles in place. Before the last point the body adds the point's tiles and leaves the idle output
    buffer as it found it; at the last point the sixteenth tile completes each buffer, so what the attention core read
    is the sixteen tiles side by side and the block it stored is `outBlk`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [Phi_castSucc, Phi_succ]
  unfold PhiS
  have hN : t.val < 16 := lt_of_lt_of_eq t.isLt (show cfg0.N = 16 from N_0)
  rw [show (dats m 0 c).leavesExact 0 t = owns (c : Thread nD τ) (ms0 t) fullShare ((dats m 0 c).after 0 t) from by
    unfold Dat.leavesExact; rw [live_0 t], after_0]
  rw [show (dats m 0 c).leavesExact 1 t = owns (c : Thread nD τ) (ms1 t) fullShare ((dats m 0 c).after 1 t) from by
    unfold Dat.leavesExact; rw [live_1 t], after_1]
  rw [show (dats m 0 c).leavesExact 2 t = owns (c : Thread nD τ) (ms2 t) fullShare ((dats m 0 c).after 2 t) from by
    unfold Dat.leavesExact; rw [live_2 t], after_2]
  rw [show (dats m 0 c).leavesExact 3 t = owns (c : Thread nD τ) (ms3 t) fullShare ((dats m 0 c).after 3 t) from by
    unfold Dat.leavesExact; rw [live_3 t], after_3]
  rw [show (dats m 0 c).leavesExact 4 t = owns (c : Thread nD τ) (ms4 t) fullShare ((dats m 0 c).after 4 t) from by
    unfold Dat.leavesExact; rw [live_4 t], after_4]
  by_cases h0 : t.val % 16 = 15
  · -- the last point
    rw [show (dats m 0 c).leavesExact 5 t = owns (c : Thread nD τ) (ms5 t) fullShare ((dats m 0 c).after 5 t) from by
      unfold Dat.leavesExact; rw [idle_5 t, decide_eq_true h0]; rfl, after_5]
    iintro ⟨⟨⟨%s0, %s1, %s2, %hF, HS0, HS1, HS2⟩, Hg⟩, Ho, ⟨%d0, H0⟩, ⟨%d1, H1⟩, ⟨%d2, H2⟩, ⟨%d3, H3⟩, ⟨%d4, H4⟩, ⟨%d5, H5⟩⟩
    have e0 : putTile s0 t.val (kTile m c t) = gather (kTile m c) :=
      Filled.full (by have := hF.1.step t rfl; rwa [show t.val + 1 = 16 from by omega] at this)
    have e1 : putTile s1 t.val (qTile m c t) = gather (qTile m c) :=
      Filled.full (by have := hF.2.1.step t rfl; rwa [show t.val + 1 = 16 from by omega] at this)
    have e2 : putTile s2 t.val (vTile m c t) = gather (vTile m c) :=
      Filled.full (by have := hF.2.2.step t rfl; rwa [show t.val + 1 = 16 from by omega] at this)
    have et : t = tlast := Fin.ext (by rw [tlast, pt_val]; omega)
    have eo : outBlk m c = k0_pay5 (putTile s0 t.val (kTile m c t)) (putTile s1 t.val (qTile m c t)) (putTile s2 t.val (vTile m c t)) (iblk m c 4 t) := by
      rw [e0, e1, e2, et]; rfl
    rw [eo]
    iapply (body_last c (grid0.coords t) _ _ _ _ _ _ _ _ _ _ _ _ _ _ _ _ _ _ ((hcond t).mpr h0) t.val (off_eq t)
      (iblk m c 0 t) (iblk m c 1 t) (iblk m c 2 t) (iblk m c 3 t) (iblk m c 4 t) s0 s1 s2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · isplitl [HS0 HS1 HS2]
      · iexists _, _, _; isplitr
        · ipureintro; exact ⟨hF.1.step t rfl, hF.2.1.step t rfl, hF.2.2.step t rfl⟩
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    iexact H5
  · -- a point before the last
    rw [Dat.leavesExact_idle (dats m 0 c) 5 t (by rw [idle_5 t, decide_eq_false h0]; rfl)
      (by have := flush0_5 t; cases hf : (cfg0.win 5).flush t with
          | false => rfl
          | true => exact absurd (this.mp hf) h0)]
    iintro ⟨⟨⟨%s0, %s1, %s2, %hF, HS0, HS1, HS2⟩, Hg⟩, Ho, ⟨%d0, H0⟩, ⟨%d1, H1⟩, ⟨%d2, H2⟩, ⟨%d3, H3⟩, ⟨%d4, H4⟩, ⟨%d5, H5⟩⟩
    iapply (body_mid c (grid0.coords t) _ _ _ _ _ _ _ _ _ _ _ _ _ _ _ _ _ _ (fun h => h0 ((hcond t).mp h)) t.val (off_eq t)
      (iblk m c 0 t) (iblk m c 1 t) (iblk m c 2 t) (iblk m c 3 t) (iblk m c 4 t) ((dats m 0 c).before 5 t d5) s0 s1 s2 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · isplitl [HS0 HS1 HS2]
      · iexists _, _, _; isplitr
        · ipureintro; exact ⟨hF.1.step t rfl, hF.2.1.step t rfl, hF.2.2.step t rfl⟩
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Entering and leaving the invariant -/

/-- What the launch hands the region — the scratch at anything — is the invariant before the first point. -/
theorem hin (c : Dev nD) : Pipeline.ΦA spec0 c ⊢ (dats m 0 c).Φ 0 := by
  rw [show (dats m 0 c).Φ 0 = PhiS m c 0 from rfl, PhiA_eq]
  unfold PhiS
  iintro ⟨⟨⟨%s0, HS0⟩, ⟨%s1, HS1⟩, ⟨%s2, HS2⟩⟩, Hg⟩
  isplitl [HS0 HS1 HS2]
  · iexists s0, s1, s2; isplitr
    · ipureintro; exact ⟨Filled.zero _ _, Filled.zero _ _, Filled.zero _ _⟩
    isplitl [HS0]; · iexact HS0
    isplitl [HS1]; · iexact HS1
    iexact HS2
  iexact Hg

/-- After the last point the invariant gives the class's back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨⟨%s0, %s1, %s2, -, HS0, HS1, HS2⟩, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- At the compiled mesh, for any values, from any memory with zero counters: every weakly fair execution of @main on the
    TensorCores terminates, and every final state has every array of the pipeline at what the library computes from the
    proof data and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- THE FRAME, at any float instance: the program runs and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.Attn.KFinal.lean ====
/-
  The result array after the region. The output window's block is the whole 32×4096 array and is written back once,
  at the last grid point, where the body has left `outBlk` in the staging buffer; so after the write-backs the array
  holds `outBlk`.
-/
import proofs.«149021_j2869038154391_1_alg».proof.Proof.Attn.KData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

variable {F : FTy → Type} [FloatOps F]

variable (m : (ℓ : Loc nD τ sig) → Buf (Elt F) ℓ)

/-- The output window's index map is the first block on both axes, at every grid point. -/
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- What a point writes back is the whole of `outBlk`: the block is the whole array, read through its own window. -/
theorem flushed5_eq (c : Dev nD) (t : Fin cfg0.N) :
    (dats m 0 c).flushed 5 t = ((cfg0.win 5).blk t).view.read (Elt F) (outBlk m c) := by
  show (cfg0.win 5).cut (grid0.coords t) ((dats m 0 c).after 5 t) = _
  rw [after_5]
  obtain ⟨e0, e1⟩ := idx5 t
  funext j
  show outBlk m c ((cfg0.win 5).xinj (grid0.coords t) j) = outBlk m c (((cfg0.win 5).blk t).view.emb j)
  refine congrArg (outBlk m c) (funext fun a => Fin.ext ?_)
  match a with
  | ⟨0, _⟩ => show (j 0).val = win0_5.index t (0 : Fin 2) * 32 + 1 * (j 0).val; omega
  | ⟨1, _⟩ => show (j 1).val = win0_5.index t (1 : Fin 2) * 4096 + 1 * (j 1).val; omega

/-- An index of the array is in a point's block iff each coordinate is in the block's range on its axis. -/
theorem mem_blk5 (t : Fin cfg0.N) (i : S32x4096.Idx) :
    i ∈ ((cfg0.win 5).blk t).view.set ↔ ∀ a : Fin 2, win0_5.index t a * S32x4096.size a ≤ (i a).val ∧ (i a).val < win0_5.index t a * S32x4096.size a + S32x4096.size a := by
  show i ∈ ((View.whole main_v4).slice (win0_5.rect t)).set ↔ _
  rw [View.set_slice_whole, Rect.mem_set_unit]
  exact Iff.rfl

/-- The last grid point writes its block back. -/
theorem flush5_last : (cfg0.win 5).flush tlast = true := (flush0_5 tlast).mpr (by rw [tlast, pt_val])

/-- After every write-back the result array holds the output block. -/
theorem final5 (c : Dev nD) : (dats m 0 c).arrAt 5 cfg0.N = outBlk m c := by
  refine (dats m 0 c).arrAt_eq_of_cover 5 (outBlk m c) (fun t _ => flushed5_eq m c t) fun i => ?_
  refine ⟨tlast, flush5_last, ?_⟩
  rw [mem_blk5]
  obtain ⟨e0, e1⟩ := idx5 tlast
  intro a
  match a with
  | ⟨0, _⟩ =>
    show win0_5.index tlast (0 : Fin 2) * 32 ≤ (i 0).val ∧ (i 0).val < win0_5.index tlast (0 : Fin 2) * 32 + 32
    have hi : (i 0).val < 32 := (i 0).isLt
    omega
  | ⟨1, _⟩ =>
    show win0_5.index tlast (1 : Fin 2) * 4096 ≤ (i 1).val ∧ (i 1).val < win0_5.index tlast (1 : Fin 2) * 4096 + 4096
    have hi : (i 1).val < 4096 := (i 1).isLt
    omega

end Cert.KernelIdeal.Hand

end
-- ==== Proof.Attn.PayProj.lean ====
/-
  The projections, at the ideal instance: a tile the kernel stores at a grid point — a matrix product of the (format-
  changed, hence unchanged) `x` block and weight block into a zero accumulator — is, entry by entry, the plain sum over
  the 4096 input features; and so is the reference's host product.
-/
import proofs.«149021_j2869038154391_1_alg».proof.Proof.Gen.KernelIdeal.Skeleton
import proofs.«149021_j2869038154391_1_alg».proof.Proof.Gen.ReferenceIdeal.Read
import proofs.«149021_j2869038154391_1_alg».proof.Proof.Attn.RefTerm
import Idealize.ShloMosaic.Lib.ValueIdx
import Idealize.ShloMosaic.Lib.ValueLayout
import Idealize.ShloMosaic.Lib.Pipeline.Value
import Idealize.ShloMosaic.PureOps.Ideal.Laws

noncomputable section

namespace Cert.Attn.Bridge

open Idealize.ShloMosaic Idealize.ShloMosaic.TcCoe Idealize.ShloMosaic.ValueIdx Idealize.SL.Sem

section Kernel
open Cert.KernelIdeal Cert.KernelIdeal.Gen

/-- The left operand's index of the tile product keeps the output's row on axis 0. -/
theorem lhs_tile_0 (i : S32x256.Idx) (q : dot_S32x4096_S4096x256_S32x256_1_0_0_1_n_n.contr.Idx) :
    (dot_S32x4096_S4096x256_S32x256_1_0_0_1_n_n.lhsIdx i q 0).val = (i 0).val := by
  unfold DotDims.lhsIdx
  rw [dif_neg (show ¬(0 : Fin S32x4096.rank) ∈ dot_S32x4096_S4096x256_S32x256_1_0_0_1_n_n.lhsBatch by decide), dif_pos (show (0 : Fin S32x4096.rank) ∈ dot_S32x4096_S4096x256_S32x256_1_0_0_1_n_n.lhsNonContracting by decide)]
  rfl

/-- and carries the contracted feature on axis 1. -/
theorem lhs_tile_1 (i : S32x256.Idx) (q : dot_S32x4096_S4096x256_S32x256_1_0_0_1_n_n.contr.Idx) :
    (dot_S32x4096_S4096x256_S32x256_1_0_0_1_n_n.lhsIdx i q 1).val = (q ⟨0, by decide⟩).val :=
  dot_S32x4096_S4096x256_S32x256_1_0_0_1_n_n.lhsIdx_val_of_single rfl i q

/-- The right operand's index carries the contracted feature on axis 0 -/
theorem rhs_tile_0 (i : S32x256.Idx) (q : dot_S32x4096_S4096x256_S32x256_1_0_0_1_n_n.contr.Idx) :
    (dot_S32x4096_S4096x256_S32x256_1_0_0_1_n_n.rhsIdx i q 0).val = (q ⟨0, by decide⟩).val :=
  dot_S32x4096_S4096x256_S32x256_1_0_0_1_n_n.rhsIdx_val_of_single rfl i q

/-- and keeps the output's column on axis 1. -/
theorem rhs_tile_1 (i : S32x256.Idx) (q : dot_S32x4096_S4096x256_S32x256_1_0_0_1_n_n.contr.Idx) :
    (dot_S32x4096_S4096x256_S32x256_1_0_0_1_n_n.rhsIdx i q 1).val = (i 1).val := by
  unfold DotDims.rhsIdx
  rw [dif_neg (show ¬(1 : Fin S4096x256.rank) ∈ dot_S32x4096_S4096x256_S32x256_1_0_0_1_n_n.rhsBatch by decide), dif_pos (show (1 : Fin S4096x256.rank) ∈ dot_S32x4096_S4096x256_S32x256_1_0_0_1_n_n.rhsNonContracting by decide)]
  rfl

/-- A tile product into the zero accumulator, entry by entry: the sum over the 4096 contracted features of the
    left operand's row against the right operand's column. -/
theorem tile_apply (x : FVec Ideal S32x4096 .bf16) (w : FVec Ideal S4096x256 .bf16) (r : Fin 32) (q : Fin 256) :
    matmul (F := Ideal) dot_S32x4096_S4096x256_S32x256_1_0_0_1_n_n none x w (constant S32x256 .f32 0x00000000#32) (ix2 r q)
      = ∑ k : Fin 4096, x (ix2 r k) * w (ix2 k q) := by
  refine (Ideal.matmul_constant_zero_apply dot_S32x4096_S4096x256_S32x256_1_0_0_1_n_n none x w (ix2 r q)).trans ?_
  rw [← Equiv.sum_comp (ValueIdx.contrEquiv1 dot_S32x4096_S4096x256_S32x256_1_0_0_1_n_n 4096 rfl rfl).symm]
  refine Finset.sum_congr rfl fun k _ => ?_
  have hk := ValueIdx.contrEquiv1_symm_val dot_S32x4096_S4096x256_S32x256_1_0_0_1_n_n 4096 rfl rfl k
  have el : dot_S32x4096_S4096x256_S32x256_1_0_0_1_n_n.lhsIdx (ix2 r q) ((ValueIdx.contrEquiv1 dot_S32x4096_S4096x256_S32x256_1_0_0_1_n_n 4096 rfl rfl).symm k) = ix2 r k := funext fun a => Fin.ext (by
    match a with
    | ⟨0, _⟩ => exact lhs_tile_0 _ _
    | ⟨1, _⟩ => exact (lhs_tile_1 _ _).trans hk)
  have er : dot_S32x4096_S4096x256_S32x256_1_0_0_1_n_n.rhsIdx (ix2 r q) ((ValueIdx.contrEquiv1 dot_S32x4096_S4096x256_S32x256_1_0_0_1_n_n 4096 rfl rfl).symm k) = ix2 k q := funext fun a => Fin.ext (by
    match a with
    | ⟨0, _⟩ => exact (rhs_tile_0 _ _).trans hk
    | ⟨1, _⟩ => exact rhs_tile_1 _ _)
  rw [el, er]

end Kernel

/-- The key tile at row `r`, column `q`: row `r` of `x` against column `q` of the weight block. -/
theorem pay2_apply (x : Vec Ideal Cert.KernelIdeal.S32x4096 .f32) (w : Vec Ideal Cert.KernelIdeal.S4096x256 .f32)
    (r : Fin 32) (q : Fin 256) :
    Cert.KernelIdeal.Gen.k0_pay2 (F := Ideal) x w (ix2 r q) = ∑ k : Fin 4096, x (ix2 r k) * w (ix2 k q) := by
  unfold Cert.KernelIdeal.Gen.k0_pay2 Cert.KernelIdeal.Gen.k0_pay1
  -- a cast of a shape to itself is the identity; a change of format is the identity at the ideal values
  rw [shapeCast_self]
  exact tile_apply x w r q

/-- The query tile is the same function of its operands as the key tile. -/
theorem pay3_apply (x : Vec Ideal Cert.KernelIdeal.S32x4096 .f32) (w : Vec Ideal Cert.KernelIdeal.S4096x256 .f32)
    (r : Fin 32) (q : Fin 256) :
    Cert.KernelIdeal.Gen.k0_pay3 (F := Ideal) x w (ix2 r q) = ∑ k : Fin 4096, x (ix2 r k) * w (ix2 k q) := by
  unfold Cert.KernelIdeal.Gen.k0_pay3 Cert.KernelIdeal.Gen.k0_pay1
  rw [shapeCast_self]
  exact tile_apply x w r q

/-- The value tile likewise. -/
theorem pay4_apply (x : Vec Ideal Cert.KernelIdeal.S32x4096 .f32) (w : Vec Ideal Cert.KernelIdeal.S4096x256 .f32)
    (r : Fin 32) (q : Fin 256) :
    Cert.KernelIdeal.Gen.k0_pay4 (F := Ideal) x w (ix2 r q) = ∑ k : Fin 4096, x (ix2 r k) * w (ix2 k q) := by
  unfold Cert.KernelIdeal.Gen.k0_pay4 Cert.KernelIdeal.Gen.k0_pay1
  rw [shapeCast_self]
  exact tile_apply x w r q

/-- The reference's projection at row `r`, column `j`. -/
theorem proj_apply (x : Vec Ideal Cert.ReferenceIdeal.S32x4096 .f32) (w : Vec Ideal Cert.ReferenceIdeal.S4096x4096 .f32)
    (r : Fin 32) (j : Fin 4096) :
    Cert.Attn.proj (F := Ideal) x w (ix2 r j) = ∑ k : Fin 4096, x (ix2 r k) * w (ix2 k j) := by
  refine (Cert.ReferenceIdeal.Read.val_main_v0_apply x w (ix2 r j)).trans ?_
  refine Finset.sum_congr rfl fun k _ => ?_
  have el : Cert.ReferenceIdeal.Read.lidx_main_v0 (ix2 r j) k = ix2 r k :=
    funext fun a => Fin.ext (by match a with | ⟨0, _⟩ => rfl | ⟨1, _⟩ => rfl)
  have er : Cert.ReferenceIdeal.Read.ridx_main_v0 (ix2 r j) k = ix2 k j :=
    funext fun a => Fin.ext (by match a with | ⟨0, _⟩ => rfl | ⟨1, _⟩ => rfl)
  rw [el, er]

end Cert.Attn.Bridge

end
-- ==== Proof.Attn.PayAttn.lean ====
/-
  The attention core, at the ideal instance: what the kernel computes at its last grid point from the three scratch
  buffers and the mask block — the scores `q · kᵀ` scaled by 2⁻⁸, clamped from above by the mask, the row maximum
  subtracted, exponentials, their row sums, the quotient, the product with `v` — is the reference's attention function
  of the same four operands: a matrix product into a zero accumulator is the host's product, a lane maximum and a
  lane sum are the host's reductions, the two ways of spreading a row statistic over its row agree, and a change of
  float format is the identity.
-/
import proofs.«149021_j2869038154391_1_alg».proof.Proof.Gen.KernelIdeal.Skeleton
import proofs.«149021_j2869038154391_1_alg».proof.Proof.Attn.RefTerm
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.Attn.Bridge

open Idealize.ShloMosaic Idealize.ShloMosaic.TcCoe Idealize.ShloMosaic.ValueIdx Idealize.SL.Sem

/-- A scalar splat read two ways: the broadcast of the value a word denotes is the rank-0 constant of that word
    broadcast to the shape; both read the one value everywhere. -/
private theorem splat_eq {T : Shape} (h : (⟨0, ![]⟩ : Shape).BroadcastsInDim T ![]) (w : BitVec 32) :
    (broadcast T (Scalar.ofBits (F := Ideal) .f32 w) : FVec Ideal T .f32)
      = broadcastInDim T ![] h (constant (F := Ideal) ⟨0, ![]⟩ .f32 w) := by
  funext j
  rw [broadcastInDim_scalar_apply]
  rfl

/-- The row maximum: the lane fold of `max` from the accumulator's value is the host's fold of `max` from the
    initial value's element, over the same 32 coordinates of the row. -/
private theorem rowMax_eq (s : FVec Ideal ⟨2, ![32, 32]⟩ .f32) (w : BitVec 32)
    (h : (⟨2, ![32, 32]⟩ : Shape).Reduces [1] ⟨1, ![32]⟩) (hφ : FKind.Formats .f32) (hacc : w = FKind.maximumf.neutral .f32 hφ)
    (h' : (⟨2, ![32, 32]⟩ : Shape).ReducesTo [1] ⟨1, ![32]⟩) (hu : 0 < (⟨0, ![]⟩ : Shape).numel) :
    multiReduction (F := Ideal) .maximumf [1] ⟨1, ![32]⟩ s w h hφ hacc
      = Host.reduce FloatOps.maximumf s (constant (F := Ideal) ⟨0, ![]⟩ .f32 w) h' hu := by
  funext j
  rw [Ideal.multiReduction_maximumf_single, Host.reduce_eq_fold_single (FloatOps.maximumf (F := Ideal) (φ := .f32)) s _ h' h hu j]
  rfl

/-- The row sum: the lane sum is the host's sum from the zero initial value, over the same 32 coordinates. -/
private theorem rowSum_eq (e : FVec Ideal ⟨2, ![32, 32]⟩ .f32)
    (h : (⟨2, ![32, 32]⟩ : Shape).Reduces [1] ⟨1, ![32]⟩) (hφ : FKind.Formats .f32) (hacc : (0x00000000#32 : BitVec 32) = FKind.add.neutral .f32 hφ)
    (h' : (⟨2, ![32, 32]⟩ : Shape).ReducesTo [1] ⟨1, ![32]⟩) (hu : 0 < (⟨0, ![]⟩ : Shape).numel) :
    multiReduction (F := Ideal) .add [1] ⟨1, ![32]⟩ e 0x00000000#32 h hφ hacc
      = Host.reduceAdd e (constant (F := Ideal) ⟨0, ![]⟩ .f32 0x00000000#32) h' hu := by
  funext j
  rw [Ideal.multiReduction_add_single]
  unfold Host.reduceAdd
  rw [Ideal.hostReduceAdd_def, Ideal.hostReduceAdd_single h' h]
  show _ = Ideal.ofBits .f32 0x00000000#32 + _
  rw [Ideal.ofBits_zero_f32, zero_add]

/-- The row maximum from the accumulator `-∞`: the lane fold from `-∞` is the host's fold from the initial value `-∞`. -/
private theorem rowMax_negInf_eq (s : FVec Ideal ⟨2, ![32, 32]⟩ .f32) (h : (⟨2, ![32, 32]⟩ : Shape).Reduces [1] ⟨1, ![32]⟩)
    (h' : (⟨2, ![32, 32]⟩ : Shape).ReducesTo [1] ⟨1, ![32]⟩) (hu : 0 < (⟨0, ![]⟩ : Shape).numel) :
    multiReduction (F := Ideal) .maximumf [1] ⟨1, ![32]⟩ s 0xFF800000#32 h (.inl rfl) rfl
      = Host.reduce FloatOps.maximumf s (constant (F := Ideal) ⟨0, ![]⟩ .f32 0xFF800000#32) h' hu :=
  rowMax_eq s _ h _ _ h' hu

/-- The row sum from the accumulator `0`: the lane sum is the host's sum from the initial value `0`. -/
private theorem rowSum_zero_eq (e : FVec Ideal ⟨2, ![32, 32]⟩ .f32) (h : (⟨2, ![32, 32]⟩ : Shape).Reduces [1] ⟨1, ![32]⟩)
    (h' : (⟨2, ![32, 32]⟩ : Shape).ReducesTo [1] ⟨1, ![32]⟩) (hu : 0 < (⟨0, ![]⟩ : Shape).numel) :
    multiReduction (F := Ideal) .add [1] ⟨1, ![32]⟩ e 0x00000000#32 h (.inl rfl) rfl
      = Host.reduceAdd e (constant (F := Ideal) ⟨0, ![]⟩ .f32 0x00000000#32) h' hu :=
  rowSum_eq e h _ _ h' hu

/-- A row statistic spread over its row, two ways: the `[32]` vector re-laid as `[32, 1]` and broadcast along the
    lanes, and the same vector broadcast in dimension 0 to `[32, 1]` and then in dimensions 0, 1 to `[32, 32]`,
    both read the statistic at the row coordinate. -/
private theorem spread_eq {α : Type} (r : (⟨1, ![32]⟩ : Shape).Idx → α)
    (h1 : (⟨1, ![32]⟩ : Shape).ShapeCasts ⟨2, ![32, 1]⟩) (h2 : (⟨2, ![32, 1]⟩ : Shape).Broadcasts ⟨2, ![32, 32]⟩)
    (h3 : (⟨1, ![32]⟩ : Shape).BroadcastsInDim ⟨2, ![32, 1]⟩ ![0])
    (h4 : (⟨2, ![32, 1]⟩ : Shape).BroadcastsInDim ⟨2, ![32, 32]⟩ ![0, 1]) :
    broadcastTo ⟨2, ![32, 32]⟩ (shapeCast ⟨2, ![32, 1]⟩ r h1) h2
      = broadcastInDim ⟨2, ![32, 32]⟩ ![0, 1] h4 (broadcastInDim ⟨2, ![32, 1]⟩ ![0] h3 r) := by
  funext j
  obtain ⟨a, b, rfl⟩ : ∃ (a : Fin 32) (b : Fin 32), j = ix2 a b := ⟨j 0, j 1, eq_ix2 j⟩
  rw [broadcastTo_apply _ h2 (ix2 a b) (ix2 a (0 : Fin 1)) (fun ax => match ax with | ⟨0, _⟩ => rfl | ⟨1, _⟩ => rfl),
    shapeCast_apply r h1 (ix2 a (0 : Fin 1)) (ix1 a) (by rw [Shape.rowMajor_val_two, Shape.rowMajor_val_one]; show a.val = a.val * 1 + 0; omega),
    broadcastInDim_apply ![0, 1] h4 _ (ix2 a b) (ix2 a (0 : Fin 1)) (fun ax => match ax with | ⟨0, _⟩ => rfl | ⟨1, _⟩ => rfl),
    broadcastInDim_apply ![0] h3 r (ix2 a (0 : Fin 1)) (ix1 a) (fun ax => match ax with | ⟨0, _⟩ => rfl)]

/-- The scores' product: the matrix product of `q` and the transposed `k` (each passed through a change of format,
    the identity) into a zero accumulator is the host's product of `q` and the transposed `k`: both are the sum over
    the 4096 contracted features of the products of the operands' entries. -/
private theorem scoresDot_eq (k q : FVec Ideal ⟨2, ![32, 4096]⟩ .f32) (hb : FTy.bits .bf16 < FTy.bits .f32)
    (hK hR : (⟨2, ![32, 4096]⟩ : Shape).Transposes [1, 0] ⟨2, ![4096, 32]⟩) :
    matmul Cert.KernelIdeal.dot_S32x4096_S4096x32_S32x32_1_0_0_1_n_n none (truncf .bf16 q hb)
        (transpose ⟨2, ![4096, 32]⟩ [1, 0] (truncf .bf16 k hb) hK) (constant ⟨2, ![32, 32]⟩ .f32 0x00000000#32)
      = Host.dotGeneral Cert.ReferenceIdeal.dot_S32x4096_S4096x32_S32x32_1_0_0_1_n_n none q
          (transpose ⟨2, ![4096, 32]⟩ [1, 0] k hR) := by
  funext j
  exact (Ideal.matmul_constant_zero_apply _ none _ _ j).trans (Ideal.dotGeneral_apply _ none .single _ _ j).symm

/-- The output's product: the matrix product of the normalised weights and `v` (each passed through a change of
    format, the identity) into a zero accumulator is the host's product of the same operands. -/
private theorem outDot_eq (p : FVec Ideal ⟨2, ![32, 32]⟩ .f32) (v : FVec Ideal ⟨2, ![32, 4096]⟩ .f32) (hb : FTy.bits .bf16 < FTy.bits .f32) :
    matmul Cert.KernelIdeal.dot_S32x32_S32x4096_S32x4096_1_0_0_1_n_n none (truncf .bf16 p hb) (truncf .bf16 v hb)
        (constant ⟨2, ![32, 4096]⟩ .f32 0x00000000#32)
      = Host.dotGeneral Cert.ReferenceIdeal.dot_S32x32_S32x4096_S32x4096_1_0_0_1_n_n none p v := by
  funext j
  exact (Ideal.matmul_constant_zero_apply _ none _ _ j).trans (Ideal.dotGeneral_apply _ none .single _ _ j).symm

/-- The exponential: the kernel's and the host's are one function of the extended reals. -/
private theorem exp_eq {s : Shape} (x : FVec Ideal s .f32) : exp x = Host.exp x := rfl

/-- The quotient likewise: the kernel's and the host's are one function of two extended reals. -/
private theorem divf_eq {s : Shape} (x y : FVec Ideal s .f32) : divf x y = Host.divf x y := rfl

/-- The kernel's attention core is the reference's attention function: the two are one chain of stages, and each stage
    of the kernel's is the host's by the lemma of its name above, from the scores' product outwards to the output's. -/
theorem pay5_eq_attn (k q v : Vec Ideal Cert.KernelIdeal.S32x4096 .f32) (mk : Vec Ideal Cert.KernelIdeal.S32x32 .f32) :
    Cert.KernelIdeal.Gen.k0_pay5 (F := Ideal) k q v mk = Cert.Attn.attn (F := Ideal) k q v mk := by
  unfold Cert.KernelIdeal.Gen.k0_pay5 Cert.Attn.attn Cert.Attn.rowNorm Cert.Attn.expd Cert.Attn.scores
  simp only [scoresDot_eq _ _ _ _ Cert.ReferenceIdeal.Gen.transposes_S32x4096_S4096x32_1_0,
    splat_eq Cert.ReferenceIdeal.Gen.bcast_S_S32x32, splat_eq Cert.ReferenceIdeal.Gen.bcast_S_S32,
    shapeCast_self,
    rowMax_negInf_eq (h' := Cert.ReferenceIdeal.Gen.reducesTo_S32x32_S32_d1) (hu := Cert.ReferenceIdeal.Gen.h_S_),
    spread_eq (h3 := Cert.ReferenceIdeal.Gen.bcast_S32_S32x1_0) (h4 := Cert.ReferenceIdeal.Gen.bcast_S32x1_S32x32_0_1),
    exp_eq,
    rowSum_zero_eq (h' := Cert.ReferenceIdeal.Gen.reducesTo_S32x32_S32_d1) (hu := Cert.ReferenceIdeal.Gen.h_S_),
    divf_eq, outDot_eq]

end Cert.Attn.Bridge

end
-- ==== Proof.Attn.KValue.lean ====
/-
  The kernel's output block as the attention function of the argument arrays. The `x`, mask and output windows
  cover their whole arrays; the weight window at grid point `t` is columns `[256 t, 256 t + 256)` of its array; the
  mask array is what the host operations before the region build. So the sixteen tiles side by side are the
  reference's projections, and the output block is the reference's attention function of them.
-/
import proofs.«149021_j2869038154391_1_alg».proof.Proof.Attn.KTiles
import proofs.«149021_j2869038154391_1_alg».proof.Proof.Attn.PayProj
import proofs.«149021_j2869038154391_1_alg».proof.Proof.Attn.PayAttn
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx Idealize.SL.Sem

variable {F : FTy → Type} [FloatOps F]

variable (m : (ℓ : Loc nD τ sig) → Buf (Elt F) ℓ)

/-- The windows' printed index maps, decided once over the sixteen points: the `x` and mask windows sit at block
    `(0, 0)` at every point; each weight window at point `t` sits at block `(0, t)`. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = 0 :=
  (by decide +kernel : ∀ t : Fin grid0.N, _)

/-- The `x` window's block is the whole `x` array at every point. -/
theorem iblk0_eq (c : Dev nD) (t : Fin cfg0.N) : (iblk m c 0 t : Vec F S32x4096 .f32) = V m c main_arg0 := by
  -- element `y` of the block sits in the array at `0 · 32 + y₀`, `0 · 4096 + y₁`
  funext y
  show V m c main_arg0 (((cfg0.win 0).blk t).view.emb y) = V m c main_arg0 y
  congr 1
  funext a; apply Fin.ext
  obtain ⟨e0, e1, e2, e3, e4, e5, e6, e7, e8, e9⟩ := idx_facts t
  match a with
  | ⟨0, _⟩ => show win0_0.index t (0 : Fin 2) * 32 + 1 * (y 0).val = (y 0).val; omega
  | ⟨1, _⟩ => show win0_0.index t (1 : Fin 2) * 4096 + 1 * (y 1).val = (y 1).val; omega

/-- The mask window's block is the whole mask array at every point. -/
theorem iblk4_eq (c : Dev nD) (t : Fin cfg0.N) : (iblk m c 4 t : Vec F S32x32 .f32) = V m c main_v3 := by
  -- element `y` of the block sits in the array at `0 · 32 + y₀`, `0 · 32 + y₁`
  funext y
  show V m c main_v3 (((cfg0.win 4).blk t).view.emb y) = V m c main_v3 y
  congr 1
  funext a; apply Fin.ext
  obtain ⟨e0, e1, e2, e3, e4, e5, e6, e7, e8, e9⟩ := idx_facts t
  match a with
  | ⟨0, _⟩ => show win0_4.index t (0 : Fin 2) * 32 + 1 * (y 0).val = (y 0).val; omega
  | ⟨1, _⟩ => show win0_4.index t (1 : Fin 2) * 32 + 1 * (y 1).val = (y 1).val; omega

/-- The `wk` window's block at point `t` is columns `[256 t, 256 t + 256)` of `wk`. -/
theorem iblk1_apply (c : Dev nD) (t : Fin cfg0.N) (k : Fin 4096) (q : Fin 256) (h : 256 * t.val + q.val < 4096) :
    (iblk m c 1 t : Vec F S4096x256 .f32) (ix2 k q) = (V m c main_arg1 : Vec F S4096x4096 .f32) (ix2 k ⟨256 * t.val + q.val, h⟩) := by
  -- element `(k, q)` of the block sits in the array at `0 · 4096 + k`, `t · 256 + q`
  show V m c main_arg1 (((cfg0.win 1).blk t).view.emb (ix2 k q)) = V m c main_arg1 (ix2 k ⟨256 * t.val + q.val, h⟩)
  congr 1
  funext a; apply Fin.ext
  obtain ⟨e0, e1, e2, e3, e4, e5, e6, e7, e8, e9⟩ := idx_facts t
  match a with
  | ⟨0, _⟩ => show win0_1.index t (0 : Fin 2) * 4096 + 1 * k.val = k.val; omega
  | ⟨1, _⟩ => show win0_1.index t (1 : Fin 2) * 256 + 1 * q.val = 256 * t.val + q.val; omega

/-- The `wq` window's block likewise. -/
theorem iblk2_apply (c : Dev nD) (t : Fin cfg0.N) (k : Fin 4096) (q : Fin 256) (h : 256 * t.val + q.val < 4096) :
    (iblk m c 2 t : Vec F S4096x256 .f32) (ix2 k q) = (V m c main_arg2 : Vec F S4096x4096 .f32) (ix2 k ⟨256 * t.val + q.val, h⟩) := by
  show V m c main_arg2 (((cfg0.win 2).blk t).view.emb (ix2 k q)) = V m c main_arg2 (ix2 k ⟨256 * t.val + q.val, h⟩)
  congr 1
  funext a; apply Fin.ext
  obtain ⟨e0, e1, e2, e3, e4, e5, e6, e7, e8, e9⟩ := idx_facts t
  match a with
  | ⟨0, _⟩ => show win0_2.index t (0 : Fin 2) * 4096 + 1 * k.val = k.val; omega
  | ⟨1, _⟩ => show win0_2.index t (1 : Fin 2) * 256 + 1 * q.val = 256 * t.val + q.val; omega

/-- The `wv` window's block likewise. -/
theorem iblk3_apply (c : Dev nD) (t : Fin cfg0.N) (k : Fin 4096) (q : Fin 256) (h : 256 * t.val + q.val < 4096) :
    (iblk m c 3 t : Vec F S4096x256 .f32) (ix2 k q) = (V m c main_arg3 : Vec F S4096x4096 .f32) (ix2 k ⟨256 * t.val + q.val, h⟩) := by
  show V m c main_arg3 (((cfg0.win 3).blk t).view.emb (ix2 k q)) = V m c main_arg3 (ix2 k ⟨256 * t.val + q.val, h⟩)
  congr 1
  funext a; apply Fin.ext
  obtain ⟨e0, e1, e2, e3, e4, e5, e6, e7, e8, e9⟩ := idx_facts t
  match a with
  | ⟨0, _⟩ => show win0_3.index t (0 : Fin 2) * 4096 + 1 * k.val = k.val; omega
  | ⟨1, _⟩ => show win0_3.index t (1 : Fin 2) * 256 + 1 * q.val = 256 * t.val + q.val; omega

/-- The mask array the region finds is the mask the reference builds. -/
theorem V_mask (c : Dev nD) : (V m c main_v3 : Vec F S32x32 .f32) = Cert.Attn.mask (F := F) := by
  -- the host operations before the region, run in order, leave in the mask array the same tree of operations
  -- (row index ≥ column index selects +1e5 over -1e5) the reference writes
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

/-- Sixteen tiles side by side are a projection `x · w` when tile `t` is `x` against a block of `w` and that block is
    columns `[256 t, 256 t + 256)` of `w`: column `j` of the gathered array is column `j % 256` of tile `j / 256`,
    which is `x` against column `256 (j / 256) + j % 256 = j` of `w`. -/
theorem gather_eq_proj (tile : Fin cfg0.N → FVec Ideal S32x256 .f32) (blk : Fin cfg0.N → Vec Ideal S4096x256 .f32)
    (x : Vec Ideal S32x4096 .f32) (w : Vec Ideal S4096x4096 .f32)
    (htile : ∀ (t : Fin cfg0.N) (r : Fin 32) (q : Fin 256), tile t (ix2 r q) = ∑ k : Fin 4096, x (ix2 r k) * blk t (ix2 k q))
    (hblk : ∀ (t : Fin cfg0.N) (k : Fin 4096) (q : Fin 256) (h : 256 * t.val + q.val < 4096),
      blk t (ix2 k q) = w (ix2 k ⟨256 * t.val + q.val, h⟩)) :
    gather tile = Cert.Attn.proj (F := Ideal) x w := by
  funext y
  obtain ⟨r, j, rfl⟩ : ∃ (r : Fin 32) (j : Fin 4096), y = ix2 r j := ⟨y 0, y 1, eq_ix2 y⟩
  rw [Cert.Attn.Bridge.proj_apply]
  have hj : j.val < 4096 := j.isLt
  have hd : j.val / 256 < 16 := by omega
  have hm : j.val % 256 < 256 := Nat.mod_lt _ (by decide)
  show tile (pt (j.val / 256) hd) (ix2 r ⟨j.val % 256, hm⟩) = _
  rw [htile]
  refine Finset.sum_congr rfl fun k _ => ?_
  have hb : 256 * (pt (j.val / 256) hd).val + (⟨j.val % 256, hm⟩ : Fin 256).val < 4096 := by
    show 256 * (j.val / 256) + j.val % 256 < 4096; omega
  rw [hblk _ k ⟨j.val % 256, hm⟩ hb]
  have e : (⟨256 * (pt (j.val / 256) hd).val + (⟨j.val % 256, hm⟩ : Fin 256).val, hb⟩ : Fin 4096) = j :=
    Fin.ext (Nat.div_add_mod j.val 256)
  rw [e]

/-- The sixteen key tiles side by side are the reference's key projection. -/
theorem gather_kTile (m : (ℓ : Loc nD τ sig) → Buf (Elt Ideal) ℓ) (c : Dev nD) :
    gather (kTile m c) = Cert.Attn.proj (F := Ideal) (m ((c.tc : Thread nD τ).loc main_arg0)) (m ((c.tc : Thread nD τ).loc main_arg1)) :=
  gather_eq_proj (kTile m c) (fun t => iblk m c 1 t) _ _
    (fun t r q => (Cert.Attn.Bridge.pay2_apply (iblk m c 0 t) (iblk m c 1 t) r q).trans (by rw [iblk0_eq m c t, V_main_arg0]))
    (fun t k q h => (iblk1_apply m c t k q h).trans (by rw [V_main_arg1]))

/-- The query tiles likewise. -/
theorem gather_qTile (m : (ℓ : Loc nD τ sig) → Buf (Elt Ideal) ℓ) (c : Dev nD) :
    gather (qTile m c) = Cert.Attn.proj (F := Ideal) (m ((c.tc : Thread nD τ).loc main_arg0)) (m ((c.tc : Thread nD τ).loc main_arg2)) :=
  gather_eq_proj (qTile m c) (fun t => iblk m c 2 t) _ _
    (fun t r q => (Cert.Attn.Bridge.pay3_apply (iblk m c 0 t) (iblk m c 2 t) r q).trans (by rw [iblk0_eq m c t, V_main_arg0]))
    (fun t k q h => (iblk2_apply m c t k q h).trans (by rw [V_main_arg2]))

/-- The value tiles likewise. -/
theorem gather_vTile (m : (ℓ : Loc nD τ sig) → Buf (Elt Ideal) ℓ) (c : Dev nD) :
    gather (vTile m c) = Cert.Attn.proj (F := Ideal) (m ((c.tc : Thread nD τ).loc main_arg0)) (m ((c.tc : Thread nD τ).loc main_arg3)) :=
  gather_eq_proj (vTile m c) (fun t => iblk m c 3 t) _ _
    (fun t r q => (Cert.Attn.Bridge.pay4_apply (iblk m c 0 t) (iblk m c 3 t) r q).trans (by rw [iblk0_eq m c t, V_main_arg0]))
    (fun t k q h => (iblk3_apply m c t k q h).trans (by rw [V_main_arg3]))

/-- The output block is the reference's attention function of the argument arrays. -/
theorem outBlk_eq (m : (ℓ : Loc nD τ sig) → Buf (Elt Ideal) ℓ) (c : Dev nD) :
    outBlk m c = Cert.Attn.attn (F := Ideal)
      (Cert.Attn.proj (m ((c.tc : Thread nD τ).loc main_arg0)) (m ((c.tc : Thread nD τ).loc main_arg1)))
      (Cert.Attn.proj (m ((c.tc : Thread nD τ).loc main_arg0)) (m ((c.tc : Thread nD τ).loc main_arg2)))
      (Cert.Attn.proj (m ((c.tc : Thread nD τ).loc main_arg0)) (m ((c.tc : Thread nD τ).loc main_arg3))) Cert.Attn.mask := by
  -- the three scratch buffers are the three projections, the mask block is the mask, and the kernel's core is the
  -- reference's attention function
  unfold outBlk
  rw [gather_kTile, gather_qTile, gather_vTile, iblk4_eq m c tlast, V_mask, Cert.Attn.Bridge.pay5_eq_attn]

end Cert.KernelIdeal.Hand

end
-- ==== Proof.Attn.KOut.lean ====
/-
  The idealized kernel's run read as a value: every weakly fair execution ends with the result array at the
  reference's attention function of the four argument arrays, and with those arrays unchanged. The frame run gives
  each array at what the write-backs leave; the result array is the output block; the output block is the
  attention function of the projections of the arguments.
-/
import proofs.«149021_j2869038154391_1_alg».proof.Proof.Attn.KFrame
import proofs.«149021_j2869038154391_1_alg».proof.Proof.Attn.KFinal
import proofs.«149021_j2869038154391_1_alg».proof.Proof.Attn.KValue

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-- The attention function of core `c`'s argument arrays. -/
def result (m : (ℓ : Loc nD τ sig) → Buf (Elt Ideal) ℓ) (c : Dev nD) : Buf (Elt Ideal) ((c.tc : Thread nD τ).loc main_v4) :=
  Cert.Attn.attn (F := Ideal)
    (Cert.Attn.proj (m ((c.tc : Thread nD τ).loc main_arg0)) (m ((c.tc : Thread nD τ).loc main_arg1)))
    (Cert.Attn.proj (m ((c.tc : Thread nD τ).loc main_arg0)) (m ((c.tc : Thread nD τ).loc main_arg2)))
    (Cert.Attn.proj (m ((c.tc : Thread nD τ).loc main_arg0)) (m ((c.tc : Thread nD τ).loc main_arg3))) Cert.Attn.mask

/-- The run, with the result named. -/
theorem run_out (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 5).trans ((final5 m c).trans (outBlk_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main (F := Ideal) m ρ)

end Cert.KernelIdeal.Hand

end
-- ==== Proof.AttnBits.KTiles.lean ====
/-
  What the kernel computes, as functions of the arrays its one region finds. At grid point `t` it stores three
  column tiles — `x · wk`, `x · wq`, `x · wv` restricted to output columns `[256 t, 256 t + 256)` — into three
  scratch buffers; after the sixteenth point each scratch holds its sixteen tiles side by side, and the output block
  is the attention function of those three buffers and the mask block.
-/
import proofs.«149021_j2869038154391_1_alg».proof.Proof.Gen.Kernel.Frame
import proofs.«149021_j2869038154391_1_alg».proof.Proof.Gen.Kernel.Skeleton
import Idealize.ShloMosaic.Lib.ValueIdx

noncomputable section

namespace Cert.Kernel.Hand

open Cert.Kernel Cert.Kernel.Gen
open Idealize.ShloMosaic Idealize.ShloMosaic.TcCoe Idealize.ShloMosaic.ValueIdx Idealize.SL.Sem

variable {F : FTy → Type} [FloatOps F]

variable (m : (ℓ : Loc nD τ sig) → Buf (Elt F) ℓ)

/-- Grid point number `n`. -/
def pt (n : ℕ) (h : n < 16) : Fin cfg0.N := ⟨n, lt_of_lt_of_eq h (show (16 : ℕ) = cfg0.N from N_0.symm)⟩

@[simp] theorem pt_val (n : ℕ) (h : n < 16) : (pt n h).val = n := rfl

/-- The last grid point, where the attention core runs. -/
def tlast : Fin cfg0.N := pt 15 (by decide)

/-- The key tile of point `t`: `x · wk` on the point's 256 output columns. -/
def kTile (c : Dev nD) (t : Fin cfg0.N) : FVec F S32x256 .f32 := k0_pay2 (iblk m c 0 t) (iblk m c 1 t)
/-- The query tile of point `t`. -/
def qTile (c : Dev nD) (t : Fin cfg0.N) : FVec F S32x256 .f32 := k0_pay3 (iblk m c 0 t) (iblk m c 2 t)
/-- The value tile of point `t`. -/
def vTile (c : Dev nD) (t : Fin cfg0.N) : FVec F S32x256 .f32 := k0_pay4 (iblk m c 0 t) (iblk m c 3 t)

/-- Sixteen 32×256 tiles side by side: column `j` of the result is column `j % 256` of tile `j / 256`. -/
def gather (tile : Fin cfg0.N → FVec F S32x256 .f32) : Vec F S32x4096 .f32 := fun y =>
  tile (pt ((y 1).val / 256) (by have h : (y 1).val < 4096 := (y 1).isLt; omega))
    (ix2 (y 0) ⟨(y 1).val % 256, Nat.mod_lt _ (by decide)⟩)

/-- The block the body leaves in the output window at the last point. -/
def outBlk (c : Dev nD) : Vec F S32x4096 .f32 :=
  k0_pay5 (gather (kTile m c)) (gather (qTile m c)) (gather (vTile m c)) (iblk m c 4 tlast)

end Cert.Kernel.Hand

end
-- ==== Proof.AttnBits.KBody.lean ====
/-
  The kernel body at one grid point, on whole staging buffers and the three scratch buffers at named contents.
  At every point the body stores the point's three projection tiles into columns `[256 n, 256 n + 256)` of the
  scratch buffers and leaves every other column as it found it (`putTile`); at the last point it then reads the
  three scratch buffers whole and stores the attention core of them and of the mask block into the output block.
-/
import proofs.«149021_j2869038154391_1_alg».proof.Proof.Gen.Kernel.Frame
import proofs.«149021_j2869038154391_1_alg».proof.Proof.Gen.Kernel.Skeleton
import Idealize.ShloMosaic.Lib.ValueIdx
import Idealize.ShloMosaic.Lib.WritesUnit
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A tile put into its columns -/

/-- `s` with columns `[256 n, 256 n + 256)` replaced by the tile `w`. -/
def putTile (s : Vec F S32x4096 .f32) (n : ℕ) (w : FVec F S32x256 .f32) : Vec F S32x4096 .f32 := fun y =>
  if h : 256 * n ≤ (y 1).val ∧ (y 1).val < 256 * n + 256 then w (ix2 (y 0) ⟨(y 1).val - 256 * n, by omega⟩) else s y

/-- Inside the tile's columns the new contents are the tile. -/
theorem putTile_in (s : Vec F S32x4096 .f32) (n : ℕ) (w : FVec F S32x256 .f32) (r : Fin 32) (q : Fin 256) (h : 256 * n + q.val < 4096) :
    putTile s n w (ix2 r ⟨256 * n + q.val, h⟩) = w (ix2 r q) := by
  unfold putTile
  rw [dif_pos (show 256 * n ≤ ((ix2 r (⟨256 * n + q.val, h⟩ : Fin 4096) : S32x4096.Idx) 1).val ∧ ((ix2 r (⟨256 * n + q.val, h⟩ : Fin 4096) : S32x4096.Idx) 1).val < 256 * n + 256 from ⟨Nat.le_add_right _ _, Nat.add_lt_add_left q.isLt _⟩)]
  exact congrArg w (funext fun a => Fin.ext (by
    match a with
    | ⟨0, _⟩ => rfl
    | ⟨1, _⟩ => show 256 * n + q.val - 256 * n = q.val; omega))

/-- Outside them they are what they were. -/
theorem putTile_out (s : Vec F S32x4096 .f32) (n : ℕ) (w : FVec F S32x256 .f32) (y : S32x4096.Idx)
    (h : (y 1).val < 256 * n ∨ 256 * n + 256 ≤ (y 1).val) : putTile s n w y = s y := by
  unfold putTile
  rw [dif_neg (by omega)]

/-- What a whole buffer at contents `s` reads after one store of the tile `w` through the unit-stride rectangle of
    all 32 rows and columns `[256 n, 256 n + 256)`. -/
theorem read_store_tile {arg : Memref sig .tc .vmem S32x4096 .f32} (harg : arg.IsWhole) (s : Vec F S32x4096 .f32)
    (off : Fin 2 → ℕ) (inb : ∀ a, off a + S32x256.size a ≤ S32x4096.size a) (w : FVec F S32x256 .f32) (n : ℕ)
    (hoff : off = ![0, 256 * n]) :
    arg.view.read (Elt F) (arg.view.writes (Elt F) (harg.unread s) [⟨Rect.unit (s := S32x4096) off S32x256.size inb, w⟩])
      = putTile s n w := by
  funext y
  by_cases h : 256 * n ≤ (y 1).val ∧ (y 1).val < 256 * n + 256
  · unfold putTile
    rw [dif_pos h]
    exact View.read_writes_cons_unit_of_mem arg.view (harg.unread s) inb w [] y (ix2 (y 0) ⟨(y 1).val - 256 * n, by omega⟩) hoff
      (Fin.forall_fin_two.mpr ⟨(Nat.zero_add _).symm, by show (y 1).val = 256 * n + ((y 1).val - 256 * n); omega⟩)
  · rw [putTile_out s n w y (by omega)]
    refine (View.read_writes_cons_unit_of_not_mem arg.view (harg.unread s) inb w [] y hoff (1 : Fin 2) (by
      show (y 1).val < 256 * n ∨ 256 * n + 256 ≤ (y 1).val; omega)).trans ?_
    rw [View.writes_nil]
    exact congrFun (harg.read_unread s) y

/-- What a whole buffer reads after one store through its whole shape: the payload. -/
theorem read_store_whole {S : Shape} {arg : Memref sig .tc .vmem S .f32} (f : arg.view.ty.Contents (Elt F))
    (off : Fin S.rank → ℕ) (hoff : off = fun _ => 0) (inb : ∀ a, off a + S.size a ≤ S.size a) (w : S.Idx → Elt F .f32) :
    arg.view.read (Elt F) (arg.view.writes (Elt F) f [⟨Rect.unit (s := S) off S.size inb, w⟩]) = w := by
  funext y
  exact View.read_writes_cons_unit_of_mem arg.view f inb w [] y y hoff (fun a => (Nat.zero_add _).symm)

/-- The zero offsets of a rank-2 rectangle. -/
theorem hz2 : (![0, 0] : Fin 2 → ℕ) = fun _ => 0 := by decide

/-- The tile rectangle's offsets at grid point `t`: row 0, column `256 t`. -/
theorem off_eq : ∀ t : Fin cfg0.N, k0_off1 (grid0.coords t) = ![0, 256 * t.val] :=
  (by decide +kernel : ∀ t : Fin grid0.N, k0_off1 (grid0.coords t) = ![0, 256 * t.val])

/-- A load through a buffer's whole shape reads its contents. -/
theorem readAt_whole {S : Shape} {arg : Memref sig .tc .vmem S .f32} (f : arg.view.ty.Contents (Elt F))
    (off : Fin S.rank → ℕ) (hoff : off = fun _ => 0) (inb : ∀ a, off a + S.size a ≤ S.size a) :
    arg.view.readAt (Elt F) (Rect.unit (s := S) off S.size inb).toLoadRect f = arg.view.read (Elt F) f := by
  rw [View.readAt_eq_ld]; exact View.ld_unit_zero hoff inb _

/-! ## The body at a point -/

set_option maxHeartbeats 1000000 in
/-- THE LAST POINT. From the inputs' blocks, the output buffer at anything and the scratch buffers at `xs·`, the body
    leaves each scratch with the point's tile put into its columns, and the output buffer at the attention core of the
    three scratch buffers so updated and the mask block. -/
theorem body_last (c : Dev nD) (i : grid0.Coords) (arg1 : Memref sig .tc .vmem S32x4096 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S32x32 .f32) (harg5 : arg5.IsWhole) (arg6 : Memref sig .tc .vmem S32x4096 .f32) (harg6 : arg6.IsWhole) (arg7 : Memref sig .tc .vmem S32x4096 .f32) (harg7 : arg7.IsWhole) (arg8 : Memref sig .tc .vmem S32x4096 .f32) (harg8 : arg8.IsWhole) (arg9 : Memref sig .tc .vmem S32x4096 .f32) (harg9 : arg9.IsWhole) (hc0 : k0_cond1 i = 1#1)
    (n : ℕ) (hoff : k0_off1 i = ![0, 256 * n])
    (x0 : Vec F S32x4096 .f32) (x1 : Vec F S4096x256 .f32) (x2 : Vec F S4096x256 .f32) (x3 : Vec F S4096x256 .f32) (x4 : Vec F S32x32 .f32)
    (xs0 xs1 xs2 : Vec F S32x4096 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ owns (c : Thread nD τ) arg8 fullShare xs1 ∗ owns (c : Thread nD τ) arg9 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k0_pay5 (putTile xs0 n (k0_pay2 x0 x1)) (putTile xs1 n (k0_pay3 x0 x2)) (putTile xs2 n (k0_pay4 x0 x3)) x4)
            ∗ owns (c : Thread nD τ) arg7 fullShare (putTile xs0 n (k0_pay2 x0 x1)) ∗ owns (c : Thread nD τ) arg8 fullShare (putTile xs1 n (k0_pay3 x0 x2)) ∗ owns (c : Thread nD τ) arg9 fullShare (putTile xs2 n (k0_pay4 x0 x3))) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9) K := by
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hfs0; obtain rfl := harg8.eq_unread hfs1; obtain rfl := harg9.eq_unread hfs2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      sl_unfold_run_names
      rw [read_store_whole f5 _ hz2 _ _]
      rw [readAt_whole (S := S32x4096) (arg := arg7) _ _ hz2 _, readAt_whole (S := S32x4096) (arg := arg8) _ _ hz2 _, readAt_whole (S := S32x4096) (arg := arg9) _ _ hz2 _, readAt_whole (S := S32x32) (arg := arg5) _ _ hz2 _,
        readAt_whole (S := S32x4096) (arg := arg1) _ _ hz2 _, readAt_whole (S := S4096x256) (arg := arg2) _ _ hz2 _, readAt_whole (S := S4096x256) (arg := arg3) _ _ hz2 _, readAt_whole (S := S4096x256) (arg := arg4) _ _ hz2 _,
        harg1.read_unread, harg2.read_unread, harg3.read_unread, harg4.read_unread, harg5.read_unread]
      rw [read_store_tile harg7 xs0 _ _ _ n hoff, read_store_tile harg8 xs1 _ _ _ n hoff, read_store_tile harg9 xs2 _ _ _ n hoff]
    isplitl [HS0]
    · iexists _; isplitr; swap; · iexact HS0
      ipureintro
      sl_unfold_run_names
      rw [readAt_whole (S := S32x4096) (arg := arg1) _ _ hz2 _, readAt_whole (S := S4096x256) (arg := arg2) _ _ hz2 _, harg1.read_unread, harg2.read_unread]
      exact read_store_tile harg7 xs0 _ _ _ n hoff
    isplitl [HS1]
    · iexists _; isplitr; swap; · iexact HS1
      ipureintro
      sl_unfold_run_names
      rw [readAt_whole (S := S32x4096) (arg := arg1) _ _ hz2 _, readAt_whole (S := S4096x256) (arg := arg3) _ _ hz2 _, harg1.read_unread, harg3.read_unread]
      exact read_store_tile harg8 xs1 _ _ _ n hoff
    iexists _; isplitr; swap; · iexact HS2
    ipureintro
    sl_unfold_run_names
    rw [readAt_whole (S := S32x4096) (arg := arg1) _ _ hz2 _, readAt_whole (S := S4096x256) (arg := arg4) _ _ hz2 _, harg1.read_unread, harg4.read_unread]
    exact read_store_tile harg9 xs2 _ _ _ n hoff

set_option maxHeartbeats 1000000 in
/-- A POINT BEFORE THE LAST. The body leaves each scratch with the point's tile put into its columns and does not touch the
    output buffer. -/
theorem body_mid (c : Dev nD) (i : grid0.Coords) (arg1 : Memref sig .tc .vmem S32x4096 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S32x32 .f32) (harg5 : arg5.IsWhole) (arg6 : Memref sig .tc .vmem S32x4096 .f32) (harg6 : arg6.IsWhole) (arg7 : Memref sig .tc .vmem S32x4096 .f32) (harg7 : arg7.IsWhole) (arg8 : Memref sig .tc .vmem S32x4096 .f32) (harg8 : arg8.IsWhole) (arg9 : Memref sig .tc .vmem S32x4096 .f32) (harg9 : arg9.IsWhole) (hc0 : ¬ k0_cond1 i = 1#1)
    (n : ℕ) (hoff : k0_off1 i = ![0, 256 * n])
    (x0 : Vec F S32x4096 .f32) (x1 : Vec F S4096x256 .f32) (x2 : Vec F S4096x256 .f32) (x3 : Vec F S4096x256 .f32) (x4 : Vec F S32x32 .f32)
    (xi5 : Vec F S32x4096 .f32) (xs0 xs1 xs2 : Vec F S32x4096 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0 ∗ owns (c : Thread nD τ) arg8 fullShare xs1 ∗ owns (c : Thread nD τ) arg9 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare xi5
            ∗ owns (c : Thread nD τ) arg7 fullShare (putTile xs0 n (k0_pay2 x0 x1)) ∗ owns (c : Thread nD τ) arg8 fullShare (putTile xs1 n (k0_pay3 x0 x2)) ∗ owns (c : Thread nD τ) arg9 fullShare (putTile xs2 n (k0_pay4 x0 x3))) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9) K := by
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hfs0; obtain rfl := harg8.eq_unread hfs1; obtain rfl := harg9.eq_unread hfs2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact hf5
      iexact H5
    isplitl [HS0]
    · iexists _; isplitr; swap; · iexact HS0
      ipureintro
      sl_unfold_run_names
      rw [readAt_whole (S := S32x4096) (arg := arg1) _ _ hz2 _, readAt_whole (S := S4096x256) (arg := arg2) _ _ hz2 _, harg1.read_unread, harg2.read_unread]
      exact read_store_tile harg7 xs0 _ _ _ n hoff
    isplitl [HS1]
    · iexists _; isplitr; swap; · iexact HS1
      ipureintro
      sl_unfold_run_names
      rw [readAt_whole (S := S32x4096) (arg := arg1) _ _ hz2 _, readAt_whole (S := S4096x256) (arg := arg3) _ _ hz2 _, harg1.read_unread, harg3.read_unread]
      exact read_store_tile harg8 xs1 _ _ _ n hoff
    iexists _; isplitr; swap; · iexact HS2
    ipureintro
    sl_unfold_run_names
    rw [readAt_whole (S := S32x4096) (arg := arg1) _ _ hz2 _, readAt_whole (S := S4096x256) (arg := arg4) _ _ hz2 _, harg1.read_unread, harg4.read_unread]
    exact read_store_tile harg9 xs2 _ _ _ n hoff

end Cert.Kernel.Hand

end
-- ==== Proof.AttnBits.KData.lean ====
/-
  The proof data of the kernel's one pipeline. Between grid points the three scratch buffers hold SOME contents of
  which only this is known: the columns of the tiles already stored, `[0, 256 n)` before point `n`, hold those
  tiles (`Filled`); the other columns are whatever the buffers held on entry. Before the first point this says
  nothing, after the last it says each scratch is its sixteen tiles side by side. The output window's staging
  buffer is written once, whole, at the last point, with the block `outBlk`.
-/
import proofs.«149021_j2869038154391_1_alg».proof.Proof.AttnBits.KTiles
import proofs.«149021_j2869038154391_1_alg».proof.Proof.AttnBits.KBody

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Columns already stored -/

/-- The columns `[0, 256 n)` of `s` hold the tiles of the points below `n`. -/
def Filled (tile : Fin cfg0.N → FVec F S32x256 .f32) (n : ℕ) (s : Vec F S32x4096 .f32) : Prop :=
  ∀ t : Fin cfg0.N, t.val < n → ∀ (r : Fin 32) (q : Fin 256) (h : 256 * t.val + q.val < 4096),
    s (ix2 r ⟨256 * t.val + q.val, h⟩) = tile t (ix2 r q)

/-- Before the first point nothing is claimed. -/
theorem Filled.zero (tile : Fin cfg0.N → FVec F S32x256 .f32) (s : Vec F S32x4096 .f32) : Filled tile 0 s :=
  fun _ ht => absurd ht (Nat.not_lt_zero _)

/-- Storing point `n`'s tile into its columns keeps the earlier tiles and adds this one. -/
theorem Filled.step {tile : Fin cfg0.N → FVec F S32x256 .f32} {n : ℕ} {s : Vec F S32x4096 .f32} (hs : Filled tile n s)
    (t : Fin cfg0.N) (ht : t.val = n) : Filled tile (n + 1) (putTile s n (tile t)) := by
  intro t' ht' r q h
  by_cases e : t'.val = n
  · obtain rfl : t' = t := Fin.ext (e.trans ht.symm)
    have := putTile_in s n (tile t') r q (by rw [← e]; exact h)
    simpa only [e] using this
  · have hlt : t'.val < n := by omega
    rw [putTile_out s n (tile t) _ (Or.inl (by
      show 256 * t'.val + q.val < 256 * n
      have := q.isLt; omega))]
    exact hs t' hlt r q h

/-- After the sixteenth point the buffer is its sixteen tiles side by side. -/
theorem Filled.full {tile : Fin cfg0.N → FVec F S32x256 .f32} {s : Vec F S32x4096 .f32} (hs : Filled tile 16 s) :
    s = gather tile := by
  funext y
  have hy : (y 1).val < 4096 := (y 1).isLt
  have hd : (y 1).val / 256 < 16 := by omega
  have key := hs (pt ((y 1).val / 256) hd) (by simpa using hd) (y 0) ⟨(y 1).val % 256, Nat.mod_lt _ (by decide)⟩
    (by show 256 * ((y 1).val / 256) + (y 1).val % 256 < 4096; rw [Nat.div_add_mod]; exact hy)
  have hidx : (ix2 (y 0) (⟨256 * (pt ((y 1).val / 256) hd).val + (y 1).val % 256, by
      show 256 * ((y 1).val / 256) + (y 1).val % 256 < 4096; rw [Nat.div_add_mod]; exact hy⟩ : Fin 4096) : S32x4096.Idx) = y :=
    funext fun a => Fin.ext (by
      match a with
      | ⟨0, _⟩ => rfl
      | ⟨1, _⟩ => show 256 * ((y 1).val / 256) + (y 1).val % 256 = (y 1).val; exact Nat.div_add_mod _ _)
  rw [hidx] at key
  exact key

/-! ## The scratch buffers and the invariant -/

/-- The scratch operands: whole scoped buffers of the kernel's own, passed beside the windows. -/
abbrev scK : Memref sig .tc .vmem S32x4096 .f32 := Memref.whole cc0_scratch0
abbrev scQ : Memref sig .tc .vmem S32x4096 .f32 := Memref.whole cc0_scratch1
abbrev scV : Memref sig .tc .vmem S32x4096 .f32 := Memref.whole cc0_scratch2

/-- The class invariant spelt over the three scratch buffers: each owned at some contents, and the generator
    register at some state. -/
theorem PhiA_eq (c : Dev nD) :
    (Pipeline.ΦA spec0 c : sProp 𝕄)
      = iprop(iprop((∃ d, owns (c : Thread nD τ) scK fullShare d) ∗ (∃ d, owns (c : Thread nD τ) scQ fullShare d) ∗ (∃ d, owns (c : Thread nD τ) scV fullShare d)) ∗ (∃ r, prngReg c r)) := by
  unfold Pipeline.ΦA; rw [scopedRest0_eq]; simp only [scK, scQ, scV, owns_whole]; try rfl

variable (m : (ℓ : Loc nD τ sig) → Buf (Elt F) ℓ)

/-- The invariant before point `n`: the scratch buffers at some contents with the first `n` tiles of each in place,
    and the generator register at some state. -/
def PhiS (c : Dev nD) (n : ℕ) : sProp 𝕄 :=
  iprop(iprop(∃ s0 s1 s2, ⌜Filled (kTile m c) n s0 ∧ Filled (qTile m c) n s1 ∧ Filled (vTile m c) n s2⌝
      ∗ owns (c : Thread nD τ) scK fullShare s0 ∗ owns (c : Thread nD τ) scQ fullShare s1 ∗ owns (c : Thread nD τ) scV fullShare s2)
    ∗ (∃ r, prngReg c r))

/-! ## The proof data -/

/-- The proof data of the one pipeline on core `c`: the arrays as the region finds them; after the body each input's
    buffer at its block and the output's at `outBlk` (consulted at the last point only: elsewhere the window is idle and
    not written back); the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk m c
  Φ t := PhiS m c t.val
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outBlk m c := by dsimp only [dats]

/-- The invariant at a point's start and end. -/
theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := by
  dsimp only [dats]; simp only [Fin.val_succ]

end Cert.Kernel.Hand

end
-- ==== Proof.AttnBits.KFrame.lean ====
/-
  The body obligation, the run and the frame of the kernel's program, at any float instance. At each grid point the
  invariant hands the body the scratch buffers at contents whose first `n` tiles are in place; the body puts the
  point's tiles into their columns, which makes it `n + 1` tiles; at the last point all sixteen are in place, so the
  three buffers the attention core reads are the sixteen tiles side by side and the block it stores is `outBlk`.
  Before the first point the invariant says no more than the class's own (the scratch at anything), after the
  last it gives that back.
-/
import proofs.«149021_j2869038154391_1_alg».proof.Proof.AttnBits.KData

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule's facts, decided over the sixteen points -/

/-- The attention core runs at the last point only. -/
theorem hcond : ∀ t : Fin cfg0.N, k0_cond1 (grid0.coords t) = 1#1 ↔ t.val % 16 = 15 :=
  (by decide +kernel : ∀ t : Fin grid0.N, k0_cond1 (grid0.coords t) = 1#1 ↔ t.val % 16 = 15)

/-- The input windows are never idle. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
/-- The output window is idle exactly where the attention core does not run. -/
theorem idle_5 : ∀ t : Fin cfg0.N, cfg0.idle 5 (grid0.coords t) = !decide (t.val % 16 = 15) := by decide +kernel

/-- Each window's current staging memref at point `t`, as the pipeline passes it to the body, and its wholeness. -/
abbrev ms0 (t : Fin cfg0.N) : Memref sig .tc .vmem S32x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4096x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S32x32 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S32x4096 .f32 := win0_5.stage (cfg0.slots t 5)
abbrev hs5 (t : Fin cfg0.N) : (ms5 t).IsWhole := hstage0_5 ((cfg0.slots t 5).cast nbuf0_5)

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## The body obligation at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1600000 in
/-- The body at any point. The inputs' buffers hold their blocks; the invariant gives the three scratch buffers at contents
    with the first `t` tiles in place. Before the last point the body adds the point's tiles and leaves the idle output
    buffer as it found it; at the last point the sixteenth tile completes each buffer, so what the attention core read
    is the sixteen tiles side by side and the block it stored is `outBlk`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [Phi_castSucc, Phi_succ]
  unfold PhiS
  have hN : t.val < 16 := lt_of_lt_of_eq t.isLt (show cfg0.N = 16 from N_0)
  rw [show (dats m 0 c).leavesExact 0 t = owns (c : Thread nD τ) (ms0 t) fullShare ((dats m 0 c).after 0 t) from by
    unfold Dat.leavesExact; rw [live_0 t], after_0]
  rw [show (dats m 0 c).leavesExact 1 t = owns (c : Thread nD τ) (ms1 t) fullShare ((dats m 0 c).after 1 t) from by
    unfold Dat.leavesExact; rw [live_1 t], after_1]
  rw [show (dats m 0 c).leavesExact 2 t = owns (c : Thread nD τ) (ms2 t) fullShare ((dats m 0 c).after 2 t) from by
    unfold Dat.leavesExact; rw [live_2 t], after_2]
  rw [show (dats m 0 c).leavesExact 3 t = owns (c : Thread nD τ) (ms3 t) fullShare ((dats m 0 c).after 3 t) from by
    unfold Dat.leavesExact; rw [live_3 t], after_3]
  rw [show (dats m 0 c).leavesExact 4 t = owns (c : Thread nD τ) (ms4 t) fullShare ((dats m 0 c).after 4 t) from by
    unfold Dat.leavesExact; rw [live_4 t], after_4]
  by_cases h0 : t.val % 16 = 15
  · -- the last point
    rw [show (dats m 0 c).leavesExact 5 t = owns (c : Thread nD τ) (ms5 t) fullShare ((dats m 0 c).after 5 t) from by
      unfold Dat.leavesExact; rw [idle_5 t, decide_eq_true h0]; rfl, after_5]
    iintro ⟨⟨⟨%s0, %s1, %s2, %hF, HS0, HS1, HS2⟩, Hg⟩, Ho, ⟨%d0, H0⟩, ⟨%d1, H1⟩, ⟨%d2, H2⟩, ⟨%d3, H3⟩, ⟨%d4, H4⟩, ⟨%d5, H5⟩⟩
    have e0 : putTile s0 t.val (kTile m c t) = gather (kTile m c) :=
      Filled.full (by have := hF.1.step t rfl; rwa [show t.val + 1 = 16 from by omega] at this)
    have e1 : putTile s1 t.val (qTile m c t) = gather (qTile m c) :=
      Filled.full (by have := hF.2.1.step t rfl; rwa [show t.val + 1 = 16 from by omega] at this)
    have e2 : putTile s2 t.val (vTile m c t) = gather (vTile m c) :=
      Filled.full (by have := hF.2.2.step t rfl; rwa [show t.val + 1 = 16 from by omega] at this)
    have et : t = tlast := Fin.ext (by rw [tlast, pt_val]; omega)
    have eo : outBlk m c = k0_pay5 (putTile s0 t.val (kTile m c t)) (putTile s1 t.val (qTile m c t)) (putTile s2 t.val (vTile m c t)) (iblk m c 4 t) := by
      rw [e0, e1, e2, et]; rfl
    rw [eo]
    iapply (body_last c (grid0.coords t) _ _ _ _ _ _ _ _ _ _ _ _ _ _ _ _ _ _ ((hcond t).mpr h0) t.val (off_eq t)
      (iblk m c 0 t) (iblk m c 1 t) (iblk m c 2 t) (iblk m c 3 t) (iblk m c 4 t) s0 s1 s2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · isplitl [HS0 HS1 HS2]
      · iexists _, _, _; isplitr
        · ipureintro; exact ⟨hF.1.step t rfl, hF.2.1.step t rfl, hF.2.2.step t rfl⟩
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    iexact H5
  · -- a point before the last
    rw [Dat.leavesExact_idle (dats m 0 c) 5 t (by rw [idle_5 t, decide_eq_false h0]; rfl)
      (by have := flush0_5 t; cases hf : (cfg0.win 5).flush t with
          | false => rfl
          | true => exact absurd (this.mp hf) h0)]
    iintro ⟨⟨⟨%s0, %s1, %s2, %hF, HS0, HS1, HS2⟩, Hg⟩, Ho, ⟨%d0, H0⟩, ⟨%d1, H1⟩, ⟨%d2, H2⟩, ⟨%d3, H3⟩, ⟨%d4, H4⟩, ⟨%d5, H5⟩⟩
    iapply (body_mid c (grid0.coords t) _ _ _ _ _ _ _ _ _ _ _ _ _ _ _ _ _ _ (fun h => h0 ((hcond t).mp h)) t.val (off_eq t)
      (iblk m c 0 t) (iblk m c 1 t) (iblk m c 2 t) (iblk m c 3 t) (iblk m c 4 t) ((dats m 0 c).before 5 t d5) s0 s1 s2 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · isplitl [HS0 HS1 HS2]
      · iexists _, _, _; isplitr
        · ipureintro; exact ⟨hF.1.step t rfl, hF.2.1.step t rfl, hF.2.2.step t rfl⟩
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Entering and leaving the invariant -/

/-- What the launch hands the region — the scratch at anything — is the invariant before the first point. -/
theorem hin (c : Dev nD) : Pipeline.ΦA spec0 c ⊢ (dats m 0 c).Φ 0 := by
  rw [show (dats m 0 c).Φ 0 = PhiS m c 0 from rfl, PhiA_eq]
  unfold PhiS
  iintro ⟨⟨⟨%s0, HS0⟩, ⟨%s1, HS1⟩, ⟨%s2, HS2⟩⟩, Hg⟩
  isplitl [HS0 HS1 HS2]
  · iexists s0, s1, s2; isplitr
    · ipureintro; exact ⟨Filled.zero _ _, Filled.zero _ _, Filled.zero _ _⟩
    isplitl [HS0]; · iexact HS0
    isplitl [HS1]; · iexact HS1
    iexact HS2
  iexact Hg

/-- After the last point the invariant gives the class's back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨⟨%s0, %s1, %s2, -, HS0, HS1, HS2⟩, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- At the compiled mesh, for any values, from any memory with zero counters: every weakly fair execution of @main on the
    TensorCores terminates, and every final state has every array of the pipeline at what the library computes from the
    proof data and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- THE FRAME, at any float instance: the program runs and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.lean ====
/-
  The proof of `Cert.Claim`: a Pallas kernel for causal attention over 32 rows against its jnp reference.
  Both compute `softmax_rows (min (q · kᵀ · 2⁻⁸, mask)) · v` with `k = x · wk`, `q = x · wq`, `v = x · wv`; the kernel
  computes the three projections 256 output columns at a time over a grid of sixteen points into three scratch
  buffers and runs the attention core at the last point.
  * The three frames: the kernel's program, read at words or at extended reals, runs and leaves its arguments
    unchanged (one argument, generic in the float instance, about what the scratch buffers hold between grid
    points); the reference's frame is its run with the result dropped.
  * `preserves`: the ideal pass rewrote nothing, the conjunct is `True`.
  * `algebraic`: at the ideal instance both programs end with the result array at ONE function of the four
    argument arrays — the reference's own composed term. On the kernel's side: after the sixteenth point each
    scratch buffer is its sixteen tiles side by side, which is the reference's projection entry by entry (the
    contraction over the 4096 input features is not tiled, so not even a sum is regrouped); the attention core is
    the reference's attention function stage by stage. No law of the extended reals beyond that is used, and the
    precondition is never opened.
-/
import proofs.«149021_j2869038154391_1_alg».proof.Defs
import proofs.«149021_j2869038154391_1_alg».proof.Proof.Gen.Kernel
import proofs.«149021_j2869038154391_1_alg».proof.Proof.Gen.KernelIdeal
import proofs.«149021_j2869038154391_1_alg».proof.Proof.Gen.ReferenceIdeal
import proofs.«149021_j2869038154391_1_alg».proof.Proof.Gen.Pre_finite_inputs
import proofs.«149021_j2869038154391_1_alg».proof.Proof.Gen.ReferenceIdeal.Run
import proofs.«149021_j2869038154391_1_alg».proof.Proof.Attn.RefTerm
import proofs.«149021_j2869038154391_1_alg».proof.Proof.Attn.KOut
import proofs.«149021_j2869038154391_1_alg».proof.Proof.AttnBits.KFrame
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_k : Cert.frame_Kernel := fun m ρ _ => Cert.Kernel.Hand.frame m ρ

/-- So does the program read at extended reals: the same argument at the other float instance. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the result at the attention function of the kernel's argument arrays: the kernel by its run
    read as a value, the reference because its composed term is that function of arguments that agree. -/
theorem algebraic : Cert.algebraic_KernelIdeal_ReferenceIdeal := by
  intro m ρ m' ρ' _ hagree
  refine ⟨fun c => Cert.KernelIdeal.Hand.result m c, Cert.KernelIdeal.Hand.run_out m ρ, ?_⟩
  refine (θ_run Cert.ReferenceIdeal.defs _ _).mono (fun _ h c => ⟨(h c).1.trans ?_, (h c).2⟩) (Cert.ReferenceIdeal.Value.run (F := Ideal) m' ρ')
  refine (Cert.Attn.res_eq (F := Ideal) m' c).trans ?_
  rw [(hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
